-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S500000x6 : Shape := ⟨2, ![500000, 6]⟩
abbrev S500000 : Shape := ⟨1, ![500000]⟩
abbrev S95x128 : Shape := ⟨2, ![95, 128]⟩
abbrev S128x6 : Shape := ⟨2, ![128, 6]⟩
abbrev S128 : Shape := ⟨1, ![128]⟩
abbrev S128x384 : Shape := ⟨2, ![128, 384]⟩
abbrev S_ : Shape := ⟨0, ![]⟩

class Facts : Prop where
  bcast_S_S500000x6 : S_.BroadcastsInDim S500000x6 (![] : Fin 0 → Fin S500000x6.rank)
  reducesTo_S500000x6_S_d0_1 : S500000x6.ReducesTo [0, 1] S_
  h_S_ : 0 < S_.numel
  bcast_S_S95x128 : S_.BroadcastsInDim S95x128 (![] : Fin 0 → Fin S95x128.rank)
  reducesTo_S95x128_S_d0_1 : S95x128.ReducesTo [0, 1] S_
  bcast_S_S128x6 : S_.BroadcastsInDim S128x6 (![] : Fin 0 → Fin S128x6.rank)
  reducesTo_S128x6_S_d0_1 : S128x6.ReducesTo [0, 1] S_
  bcast_S_S128 : S_.BroadcastsInDim S128 (![] : Fin 0 → Fin S128.rank)
  reducesTo_S128_S_d0 : S128.ReducesTo [0] S_
  bcast_S_S128x384 : S_.BroadcastsInDim S128x384 (![] : Fin 0 → Fin S128x384.rank)
  reducesTo_S128x384_S_d0_1 : S128x384.ReducesTo [0, 1] S_
  bcast_S_S100000 : S_.BroadcastsInDim S100000 (![] : Fin 0 → Fin S100000.rank)
  reducesTo_S100000_S_d0 : S100000.ReducesTo [0] S_
  bcast_S_S500000 : S_.BroadcastsInDim S500000 (![] : Fin 0 → Fin S500000.rank)
  reducesTo_S500000_S_d0 : S500000.ReducesTo [0] S_

variable [Facts]

def fn_part3 {F : FTy → Type} [FloatOps F] (main_arg3 : IVec S500000 32) (main_v48 : IVec S_ 1) (main_c_20 : IVec S_ 32) : IVec S_ 1 :=
  let main_v49 : IVec S500000 32 := broadcastInDim S500000 ![] bcast_S_S500000 main_c_20
  let main_v50 : IVec S500000 1 := cmpi .slt main_arg3 main_v49
  let main_c_21 : IVec S_ 1 := constantI S_ 1 1#1
  let main_v51 : IVec S_ 1 := (fun x v => Host.reduce IntOp.andi x v reducesTo_S500000_S_d0 h_S_) main_v50 main_c_21
  let main_v52 : IVec S_ 1 := andi main_v48 main_v51
  main_v52

def fn_part2 {F : FTy → Type} [FloatOps F] (main_arg0 : IVec S100000 32) (main_arg2 : IVec S500000 32) (main_arg3 : IVec S500000 32) (main_v32 : IVec S_ 1) (main_c_12 : IVec S_ 32) : IVec S_ 1 :=
  let main_v33 : IVec S100000 32 := broadcastInDim S100000 ![] bcast_S_S100000 main_c_12
  let main_v34 : IVec S100000 1 := cmpi .slt main_arg0 main_v33
  let main_c_13 : IVec S_ 1 := constantI S_ 1 1#1
  let main_v35 : IVec S_ 1 := (fun x v => Host.reduce IntOp.andi x v reducesTo_S100000_S_d0 h_S_) main_v34 main_c_13
  let main_v36 : IVec S_ 1 := andi main_v32 main_v35
  let main_c_14 : IVec S_ 32 := constantI S_ 32 0#32
  let main_v37 : IVec S500000 32 := broadcastInDim S500000 ![] bcast_S_S500000 main_c_14
  let main_v38 : IVec S500000 1 := cmpi .sge main_arg2 main_v37
  let main_c_15 : IVec S_ 1 := constantI S_ 1 1#1
  let main_v39 : IVec S_ 1 := (fun x v => Host.reduce IntOp.andi x v reducesTo_S500000_S_d0 h_S_) main_v38 main_c_15
  let main_v40 : IVec S_ 1 := andi main_v36 main_v39
  let main_c_16 : IVec S_ 32 := constantI S_ 32 100000#32
  let main_v41 : IVec S500000 32 := broadcastInDim S500000 ![] bcast_S_S500000 main_c_16
  let main_v42 : IVec S500000 1 := cmpi .slt main_arg2 main_v41
  let main_c_17 : IVec S_ 1 := constantI S_ 1 1#1
  let main_v43 : IVec S_ 1 := (fun x v => Host.reduce IntOp.andi x v reducesTo_S500000_S_d0 h_S_) main_v42 main_c_17
  let main_v44 : IVec S_ 1 := andi main_v40 main_v43
  let main_c_18 : IVec S_ 32 := constantI S_ 32 0#32
  let main_v45 : IVec S500000 32 := broadcastInDim S500000 ![] bcast_S_S500000 main_c_18
  let main_v46 : IVec S500000 1 := cmpi .sge main_arg3 main_v45
  let main_c_19 : IVec S_ 1 := constantI S_ 1 1#1
  let main_v47 : IVec S_ 1 := (fun x v => Host.reduce IntOp.andi x v reducesTo_S500000_S_d0 h_S_) main_v46 main_c_19
  let main_v48 : IVec S_ 1 := andi main_v44 main_v47
  let main_c_20 : IVec S_ 32 := constantI S_ 32 100000#32
  fn_part3 (F := F) main_arg3 main_v48 main_c_20

def fn_part1 {F : FTy → Type} [FloatOps F] (main_arg0 : IVec S100000 32) (main_arg2 : IVec S500000 32) (main_arg3 : IVec S500000 32) (main_arg7 : FVec F S128x384 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x384 .f32 := Host.absf main_arg7
  let main_cst_6 : FVec F S_ .f32 := constant S_ .f32 0x7F800000#32
  let main_v20 : FVec F S128x384 .f32 := broadcastInDim S128x384 ![] bcast_S_S128x384 main_cst_6
  let main_v21 : IVec S128x384 1 := cmpf .olt main_v19 main_v20
  let main_c_7 : IVec S_ 1 := constantI S_ 1 1#1
  let main_v22 : IVec S_ 1 := (fun x v => Host.reduce IntOp.andi x v reducesTo_S128x384_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S100000 32 := broadcastInDim S100000 ![] bcast_S_S100000 main_c_10
  let main_v30 : IVec S100000 1 := cmpi .sge main_arg0 main_v29
  let main_c_11 : IVec S_ 1 := constantI S_ 1 1#1
  let main_v31 : IVec S_ 1 := (fun x v => Host.reduce IntOp.andi x v reducesTo_S100000_S_d0 h_S_) main_v30 main_c_11
  let main_v32 : IVec S_ 1 := andi main_v28 main_v31
  let main_c_12 : IVec S_ 32 := constantI S_ 32 95#32
  fn_part2 (F := F) main_arg0 main_arg2 main_arg3 main_v32 main_c_12

def fn {F : FTy → Type} [FloatOps F] (main_arg0 : IVec S100000 32) (main_arg1 : FVec F S500000x6 .f32) (main_arg2 : IVec S500000 32) (main_arg3 : IVec S500000 32) (main_arg4 : FVec F S95x128 .f32) (main_arg5 : FVec F S128x6 .f32) (main_arg6 : FVec F S128 .f32) (main_arg7 : FVec F S128x384 .f32) (main_arg8 : FVec F S128 .f32) : IVec S_ 1 :=
  let main_v0 : FVec F S500000x6 .f32 := Host.absf main_arg1
  let main_cst : FVec F S_ .f32 := constant S_ .f32 0x7F800000#32
  let main_v1 : FVec F S500000x6 .f32 := broadcastInDim S500000x6 ![] bcast_S_S500000x6 main_cst
  let main_v2 : IVec S500000x6 1 := cmpf .olt main_v0 main_v1
  let main_c : IVec S_ 1 := constantI S_ 1 1#1
  let main_v3 : IVec S_ 1 := (fun x v => Host.reduce IntOp.andi x v reducesTo_S500000x6_S_d0_1 h_S_) main_v2 main_c
  let main_v4 : FVec F S95x128 .f32 := Host.absf main_arg4
  let main_cst_0 : FVec F S_ .f32 := constant S_ .f32 0x7F800000#32
  let main_v5 : FVec F S95x128 .f32 := broadcastInDim S95x128 ![] bcast_S_S95x128 main_cst_0
  let main_v6 : IVec S95x128 1 := cmpf .olt main_v4 main_v5
  let main_c_1 : IVec S_ 1 := constantI S_ 1 1#1
  let main_v7 : IVec S_ 1 := (fun x v => Host.reduce IntOp.andi x v reducesTo_S95x128_S_d0_1 h_S_) main_v6 main_c_1
  let main_v8 : IVec S_ 1 := andi main_v3 main_v7
  let main_v9 : FVec F S128x6 .f32 := Host.absf main_arg5
  let main_cst_2 : FVec F S_ .f32 := constant S_ .f32 0x7F800000#32
  let main_v10 : FVec F S128x6 .f32 := broadcastInDim S128x6 ![] bcast_S_S128x6 main_cst_2
  let main_v11 : IVec S128x6 1 := cmpf .olt main_v9 main_v10
  let main_c_3 : IVec S_ 1 := constantI S_ 1 1#1
  let main_v12 : IVec S_ 1 := (fun x v => Host.reduce IntOp.andi x v reducesTo_S128x6_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg0 main_arg2 main_arg3 main_arg7 main_arg8 main_v13 main_v16
-- ==== Kernel.lean ====
abbrev S100000 : Shape := ⟨1, ![100000]⟩
abbrev S500000x6 : Shape := ⟨2, ![500000, 6]⟩
abbrev S500000 : Shape := ⟨1, ![500000]⟩
abbrev S95x128 : Shape := ⟨2, ![95, 128]⟩
abbrev S128x6 : Shape := ⟨2, ![128, 6]⟩
abbrev S128 : Shape := ⟨1, ![128]⟩
abbrev S128x384 : Shape := ⟨2, ![128, 384]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S500000x2 : Shape := ⟨2, ![500000, 2]⟩
abbrev S128x128 : Shape := ⟨2, ![128, 128]⟩
abbrev S500000x8 : Shape := ⟨2, ![500000, 8]⟩
abbrev S6x128 : Shape := ⟨2, ![6, 128]⟩
abbrev S8x128 : Shape := ⟨2, ![8, 128]⟩
abbrev S1x128 : Shape := ⟨2, ![1, 128]⟩
abbrev S500000x128 : Shape := ⟨2, ![500000, 128]⟩
abbrev S4000x2 : Shape := ⟨2, ![4000, 2]⟩
abbrev S4000x8 : Shape := ⟨2, ![4000, 8]⟩
abbrev S4000x128 : Shape := ⟨2, ![4000, 128]⟩
abbrev S4000x1 : Shape := ⟨2, ![4000, 1]⟩

abbrev nBuf : Space → Nat
  | .hbm => 82
  | .vmem => 12
  | .smem => 0
  | _ => 0

abbrev bufTy : (tb : Table) → Fin (tcTables nBuf tb) → BufTy
  | .hbm, ⟨0, _⟩ => ⟨S100000, .i32⟩
  | .hbm, ⟨1, _⟩ => ⟨S500000x6, .f32⟩
  | .hbm, ⟨2, _⟩ => ⟨S500000, .i32⟩
  | .hbm, ⟨3, _⟩ => ⟨S500000, .i32⟩
  | .hbm, ⟨4, _⟩ => ⟨S95x128, .f32⟩
  | .hbm, ⟨5, _⟩ => ⟨S128x6, .f32⟩
  | .hbm, ⟨6, _⟩ => ⟨S128, .f32⟩
  | .hbm, ⟨7, _⟩ => ⟨S128x384, .f32⟩
  | .hbm, ⟨8, _⟩ => ⟨S128, .f32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S1, .i32⟩
  | .hbm, ⟨18, _⟩ => ⟨S_, .i32⟩
  | .hbm, ⟨19, _⟩ => ⟨S500000x1, .i32⟩
  | .hbm, ⟨20, _⟩ => ⟨S500000x1, .i1⟩
  | .hbm, ⟨21, _⟩ => ⟨S1x1, .i32⟩
  | .hbm, ⟨22, _⟩ => ⟨S500000x1, .i32⟩
  | .hbm, ⟨23, _⟩ => ⟨S500000x1, .i1⟩
  | .hbm, ⟨24, _⟩ => ⟨S500000x1, .i1⟩
  | .hbm, ⟨25, _⟩ => ⟨S_, .i1⟩
  | .hbm, ⟨26, _⟩ => ⟨S500000, .i1⟩
  | .hbm, ⟨27, _⟩ => ⟨S500000, .i32⟩
  | .hbm, ⟨28, _⟩ => ⟨S_, .i32⟩
  | .hbm, ⟨29, _⟩ => ⟨S500000, .i32⟩
  | .hbm, ⟨30, _⟩ => ⟨S500000, .i32⟩
  | .hbm, ⟨31, _⟩ => ⟨S_, .i32⟩
  | .hbm, ⟨32, _⟩ => ⟨S500000, .i32⟩
  | .hbm, ⟨33, _⟩ => ⟨S500000, .i1⟩
  | .hbm, ⟨34, _⟩ => ⟨S_, .i32⟩
  | .hbm, ⟨35, _⟩ => ⟨S500000, .i32⟩
  | .hbm, ⟨36, _⟩ => ⟨S500000, .i32⟩
  | .hbm, ⟨37, _⟩ => ⟨S500000, .i32⟩
  | .hbm, ⟨38, _⟩ => ⟨S500000x1, .i32⟩
  | .hbm, ⟨39, _⟩ => ⟨S1, .i32⟩
  | .hbm, ⟨40, _⟩ => ⟨S_, .i32⟩
  | .hbm, ⟨41, _⟩ => ⟨S500000x1, .i32⟩
  | .hbm, ⟨42, _⟩ => ⟨S500000x1, .i1⟩
  | .hbm, ⟨43, _⟩ => ⟨S1x1, .i32⟩
  | .hbm, ⟨44, _⟩ => ⟨S500000x1, .i32⟩
  | .hbm, ⟨45, _⟩ => ⟨S500000x1, .i1⟩
  | .hbm, ⟨46, _⟩ => ⟨S500000x1, .i1⟩
  | .hbm, ⟨47, _⟩ => ⟨S_, .i1⟩
  | .hbm, ⟨48, _⟩ => ⟨S500000, .i1⟩
  | .hbm, ⟨49, _⟩ => ⟨S500000, .i32⟩
  | .hbm, ⟨50, _⟩ => ⟨S_, .i32⟩
  | .hbm, ⟨51, _⟩ => ⟨S500000, .i32⟩
  | .hbm, ⟨52, _⟩ => ⟨S500000, .i32⟩
  | .hbm, ⟨53, _⟩ => ⟨S500000x1, .i32⟩
  | .hbm, ⟨54, _⟩ => ⟨S500000x1, .i32⟩
  | .hbm, ⟨55, _⟩ => ⟨S500000x2, .i32⟩
  | .hbm, ⟨56, _⟩ => ⟨S_, .i32⟩
  | .hbm, ⟨57, _⟩ => ⟨S_, .f32⟩
  | .hbm, ⟨58, _⟩ => ⟨S128x128, .f32⟩
  | .hbm, ⟨59, _⟩ => ⟨S128x128, .f32⟩
  | .hbm, ⟨60, _⟩ => ⟨S128x128, .f32⟩
  | .hbm, ⟨61, _⟩ => ⟨S128x128, .f32⟩
  | .hbm, ⟨62, _⟩ => ⟨S128x128, .f32⟩
  | .hbm, ⟨63, _⟩ => ⟨S128x128, .f32⟩
  | .hbm, ⟨64, _⟩ => ⟨S128x128, .bf16⟩
  | .hbm, ⟨65, _⟩ => ⟨S128x128, .f32⟩
  | .hbm, ⟨66, _⟩ => ⟨S128x128, .f32⟩
  | .hbm, ⟨67, _⟩ => ⟨S128x128, .bf16⟩
  | .hbm, ⟨68, _⟩ => ⟨S128x128, .f32⟩
  | .hbm, ⟨69, _⟩ => ⟨S128x128, .bf16⟩
  | .hbm, ⟨70, _⟩ => ⟨S_, .i32⟩
  | .hbm, ⟨71, _⟩ => ⟨S_, .f32⟩
  | .hbm, ⟨72, _⟩ => ⟨S500000x8, .f32⟩
  | .hbm, ⟨73, _⟩ => ⟨S500000x8, .bf16⟩
  | .hbm, ⟨74, _⟩ => ⟨S6x128, .f32⟩
  | .hbm, ⟨75, _⟩ => ⟨S_, .i32⟩
  | .hbm, ⟨76, _⟩ => ⟨S_, .f32⟩
  | .hbm, ⟨77, _⟩ => ⟨S8x128, .f32⟩
  | .hbm, ⟨78, _⟩ => ⟨S8x128, .bf16⟩
  | .hbm, ⟨79, _⟩ => ⟨S1x128, .f32⟩
  | .hbm, ⟨80, _⟩ => ⟨S1x128, .f32⟩
  | .hbm, ⟨81, _⟩ => ⟨S500000x128, .f32⟩
  | .local _ .vmem, ⟨0, _⟩ => ⟨S4000x2, .i32⟩
  | .local _ .vmem, ⟨1, _⟩ => ⟨S4000x2, .i32⟩
  | .local _ .vmem, ⟨2, _⟩ => ⟨S4000x8, .bf16⟩
  | .local _ .vmem, ⟨3, _⟩ => ⟨S4000x8, .bf16⟩
  | .local _ .vmem, ⟨4, _⟩ => ⟨S128x128, .bf16⟩
  | .local _ .vmem, ⟨5, _⟩ => ⟨S128x128, .bf16⟩
  | .local _ .vmem, ⟨6, _⟩ => ⟨S8x128, .bf16⟩
  | .local _ .vmem, ⟨7, _⟩ => ⟨S1x128, .f32⟩
  | .local _ .vmem, ⟨8, _⟩ => ⟨S128x128, .bf16⟩
  | .local _ .vmem, ⟨9, _⟩ => ⟨S1x128, .f32⟩
  | .local _ .vmem, ⟨10, _⟩ => ⟨S4000x128, .f32⟩
  | .local _ .vmem, ⟨11, _⟩ => ⟨S4000x128, .f32⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_c_4 : Ref sig .tc := ⟨.hbm, 28, rfl⟩
abbrev main_call0_v14 : Ref sig .tc := ⟨.hbm, 29, rfl⟩
abbrev main_v0 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_c_4 : Ref sig .tc := ⟨.hbm, 50, rfl⟩
abbrev main_call1_v14 : Ref sig .tc := ⟨.hbm, 51, rfl⟩
abbrev main_v1 : Ref sig .tc := ⟨.hbm, 52, rfl⟩
abbrev main_v2 : Ref sig .tc := ⟨.hbm, 53, rfl⟩
abbrev main_v3 : Ref sig .tc := ⟨.hbm, 54, rfl⟩
abbrev main_v4 : Ref sig .tc := ⟨.hbm, 55, rfl⟩
abbrev main_c : Ref sig .tc := ⟨.hbm, 56, rfl⟩
abbrev main_call2_v0 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_v16 : Ref sig .tc := ⟨.hbm, 69, rfl⟩
abbrev main_c_0 : Ref sig .tc := ⟨.hbm, 70, rfl⟩
abbrev main_call3_v0 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_c_1 : Ref sig .tc := ⟨.hbm, 75, rfl⟩
abbrev main_call4_v0 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x8 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  concatenates_S500000x1_S500000x1_S500000x2_d1 : Shape.Concatenates [S500000x1, S500000x1] S500000x2 1
  pads_S95x128_S128x128_0330_000 : S95x128.Pads (![0, 0] : Fin 2 → Nat) ![33, 0] ![0, 0] S128x128
  slices_S128x384_S128x128_0_0 : S128x384.Slices ![0, 0] S128x128
  slices_S128x384_S128x128_0_128 : S128x384.Slices ![0, 128] S128x128
  slices_S128x384_S128x128_0_256 : S128x384.Slices ![0, 256] S128x128
  transposes_S128x128_S128x128_1_0 : S128x128.Transposes [1, 0] S128x128
  bitsLt_bf16_f32 : FTy.bits .bf16 < FTy.bits .f32
  pads_S500000x6_S500000x8_000_020 : S500000x6.Pads (![0, 0] : Fin 2 → Nat) ![0, 2] ![0, 0] S500000x8
  transposes_S128x6_S6x128_1_0 : S128x6.Transposes [1, 0] S6x128
  pads_S6x128_S8x128_020_000 : S6x128.Pads (![0, 0] : Fin 2 → Nat) ![2, 0] ![0, 0] S8x128
  shapeCasts_S128_S1x128 : S128.ShapeCasts S1x128
  iota_S4000x128_d1_w32 : S4000x128.Iotas .tc 32 [1]
  inb_S4000x2_S4000x1_0_0 : ∀ a, (![0, 0] : Fin 2 → Nat) a + S4000x1.size a ≤ S4000x2.size a
  h_S4000x1 : 0 < S4000x1.numel
  shapeCasts_S4000x1_S4000x1 : S4000x1.ShapeCasts S4000x1
  inb_S4000x2_S4000x1_0_1 : ∀ a, (![0, 1] : Fin 2 → Nat) a + S4000x1.size a ≤ S4000x2.size a
  broadcasts_S4000x1_S4000x128 : S4000x1.Broadcasts S4000x128
  natLt_1_32 : 1 < 32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x8_S4000x8_0_0 : ∀ a, (![0, 0] : Fin 2 → Nat) a + S4000x8.size a ≤ S4000x8.size a
  h_S4000x8 : 0 < S4000x8.numel
  shapeCasts_S4000x8_S4000x8 : S4000x8.ShapeCasts S4000x8
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  gather_S100000_S500000x1_S500000_n_0_n_n_0_1_1_wf : GatherDims.WF S100000 S500000x1 S500000 [] [0] [] [0] [] 1 ![1]
  dot_S128x128_S128x128_S128x128_1_0_0_1_n_n_wf : DotDims.WF S128x128 S128x128 S128x128 [1] [0] [0] [1] [] []
  dot_S4000x128_S128x128_S4000x128_1_0_0_1_n_n_wf : DotDims.WF S4000x128 S128x128 S4000x128 [1] [0] [0] [1] [] []
  dot_S4000x8_S8x128_S4000x128_1_0_0_1_n_n_wf : DotDims.WF S4000x8 S8x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x2.size a ≤ S500000x2.size a
  hwx0_0 : ∀ i : grid0.Coords, EltTy.bits .i32 = 32 ∨ (Rect.block (s := S500000x2) S4000x2.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x8.size a ≤ S500000x8.size a
  hwx0_1 : ∀ i : grid0.Coords, EltTy.bits .bf16 = 32 ∨ (Rect.block (s := S500000x8) S4000x8.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S8x128.size a
  hwx0_4 : ∀ i : grid0.Coords, EltTy.bits .bf16 = 32 ∨ (Rect.block (s := S8x128) S8x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x128.size a ≤ S500000x128.size a
  hwx0_8 : ∀ i : grid0.Coords, EltTy.bits .f32 = 32 ∨ (Rect.block (s := S500000x128) S4000x128.size (cc0_transform_8 i) (hinb0_8 i)).WholeWords (EltTy.packing .f32)

variable [Facts₀]

def gather_S100000_S500000x1_S500000_n_0_n_n_0_1_1 : GatherDims S100000 S500000x1 S500000 where
  offsetDims := []
  collapsedSliceDims := [0]
  operandBatchingDims := []
  startIndicesBatchingDims := []
  startIndexMap := [0]
  indexVectorDim := 1
  sliceSizes := ![1]
  wf := gather_S100000_S500000x1_S500000_n_0_n_n_0_1_1_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x8_S8x128_S4000x128_1_0_0_1_n_n : DotDims S4000x8 S8x128 S4000x128 where
  lhsContracting := [1]
  rhsContracting := [0]
  lhsNonContracting := [0]
  rhsNonContracting := [1]
  lhsBatch := []
  rhsBatch := []
  wf := dot_S4000x8_S8x128_S4000x128_1_0_0_1_n_n_wf

abbrev win0_0 : Pipeline.Window sig grid0 :=
  Pipeline.Window.ofSpec (Memref.whole main_v4) S4000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S4000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S8x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S4000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000 : Shape := ⟨1, ![100000]⟩
abbrev S500000x6 : Shape := ⟨2, ![500000, 6]⟩
abbrev S500000 : Shape := ⟨1, ![500000]⟩
abbrev S95x128 : Shape := ⟨2, ![95, 128]⟩
abbrev S128x6 : Shape := ⟨2, ![128, 6]⟩
abbrev S128 : Shape := ⟨1, ![128]⟩
abbrev S128x384 : Shape := ⟨2, ![128, 384]⟩
abbrev S_ : Shape := ⟨0, ![]⟩
abbrev S100000x1 : Shape := ⟨2, ![100000, 1]⟩
abbrev S100000x128 : Shape := ⟨2, ![100000, 128]⟩
abbrev S6x128 : Shape := ⟨2, ![6, 128]⟩
abbrev S500000x128 : Shape := ⟨2, ![500000, 128]⟩
abbrev S1x128 : Shape := ⟨2, ![1, 128]⟩
abbrev S500000x1 : Shape := ⟨2, ![500000, 1]⟩
abbrev S500000x384 : Shape := ⟨2, ![500000, 384]⟩
abbrev S384x128 : Shape := ⟨2, ![384, 128]⟩

abbrev nBuf : Space → Nat
  | .hbm => 65
  | .vmem => 0
  | .smem => 0
  | _ => 0

abbrev bufTy : (tb : Table) → Fin (tcTables nBuf tb) → BufTy
  | .hbm, ⟨0, _⟩ => ⟨S100000, .i32⟩
  | .hbm, ⟨1, _⟩ => ⟨S500000x6, .f32⟩
  | .hbm, ⟨2, _⟩ => ⟨S500000, .i32⟩
  | .hbm, ⟨3, _⟩ => ⟨S500000, .i32⟩
  | .hbm, ⟨4, _⟩ => ⟨S95x128, .f32⟩
  | .hbm, ⟨5, _⟩ => ⟨S128x6, .f32⟩
  | .hbm, ⟨6, _⟩ => ⟨S128, .f32⟩
  | .hbm, ⟨7, _⟩ => ⟨S128x384, .f32⟩
  | .hbm, ⟨8, _⟩ => ⟨S128, .f32⟩
  | .hbm, ⟨9, _⟩ => ⟨S_, .i32⟩
  | .hbm, ⟨10, _⟩ => ⟨S100000, .i32⟩
  | .hbm, ⟨11, _⟩ => ⟨S100000, .i1⟩
  | .hbm, ⟨12, _⟩ => ⟨S_, .i32⟩
  | .hbm, ⟨13, _⟩ => ⟨S100000, .i32⟩
  | .hbm, ⟨14, _⟩ => ⟨S100000, .i32⟩
  | .hbm, ⟨15, _⟩ => ⟨S100000, .i32⟩
  | .hbm, ⟨16, _⟩ => ⟨S100000x1, .i32⟩
  | .hbm, ⟨17, _⟩ => ⟨S100000x128, .f32⟩
  | .hbm, ⟨18, _⟩ => ⟨S6x128, .f32⟩
  | .hbm, ⟨19, _⟩ => ⟨S500000x128, .f32⟩
  | .hbm, ⟨20, _⟩ => ⟨S1x128, .f32⟩
  | .hbm, ⟨21, _⟩ => ⟨S500000x128, .f32⟩
  | .hbm, ⟨22, _⟩ => ⟨S500000x128, .f32⟩
  | .hbm, ⟨23, _⟩ => ⟨S500000x128, .f32⟩
  | .hbm, ⟨24, _⟩ => ⟨S500000x128, .f32⟩
  | .hbm, ⟨25, _⟩ => ⟨S_, .f32⟩
  | .hbm, ⟨26, _⟩ => ⟨S500000x128, .f32⟩
  | .hbm, ⟨27, _⟩ => ⟨S500000x128, .f32⟩
  | .hbm, ⟨28, _⟩ => ⟨S_, .f32⟩
  | .hbm, ⟨29, _⟩ => ⟨S500000x128, .f32⟩
  | .hbm, ⟨30, _⟩ => ⟨S500000x128, .f32⟩
  | .hbm, ⟨31, _⟩ => ⟨S500000x128, .f32⟩
  | .hbm, ⟨32, _⟩ => ⟨S_, .i32⟩
  | .hbm, ⟨33, _⟩ => ⟨S500000, .i32⟩
  | .hbm, ⟨34, _⟩ => ⟨S500000, .i1⟩
  | .hbm, ⟨35, _⟩ => ⟨S_, .i32⟩
  | .hbm, ⟨36, _⟩ => ⟨S500000, .i32⟩
  | .hbm, ⟨37, _⟩ => ⟨S500000, .i32⟩
  | .hbm, ⟨38, _⟩ => ⟨S500000, .i32⟩
  | .hbm, ⟨39, _⟩ => ⟨S500000x1, .i32⟩
  | .hbm, ⟨40, _⟩ => ⟨S500000x128, .f32⟩
  | .hbm, ⟨41, _⟩ => ⟨S_, .i32⟩
  | .hbm, ⟨42, _⟩ => ⟨S500000, .i32⟩
  | .hbm, ⟨43, _⟩ => ⟨S500000, .i1⟩
  | .hbm, ⟨44, _⟩ => ⟨S_, .i32⟩
  | .hbm, ⟨45, _⟩ => ⟨S500000, .i32⟩
  | .hbm, ⟨46, _⟩ => ⟨S500000, .i32⟩
  | .hbm, ⟨47, _⟩ => ⟨S500000, .i32⟩
  | .hbm, ⟨48, _⟩ => ⟨S500000x1, .i32⟩
  | .hbm, ⟨49, _⟩ => ⟨S500000x128, .f32⟩
  | .hbm, ⟨50, _⟩ => ⟨S500000x384, .f32⟩
  | .hbm, ⟨51, _⟩ => ⟨S384x128, .f32⟩
  | .hbm, ⟨52, _⟩ => ⟨S500000x128, .f32⟩
  | .hbm, ⟨53, _⟩ => ⟨S1x128, .f32⟩
  | .hbm, ⟨54, _⟩ => ⟨S500000x128, .f32⟩
  | .hbm, ⟨55, _⟩ => ⟨S500000x128, .f32⟩
  | .hbm, ⟨56, _⟩ => ⟨S500000x128, .f32⟩
  | .hbm, ⟨57, _⟩ => ⟨S500000x128, .f32⟩
  | .hbm, ⟨58, _⟩ => ⟨S_, .f32⟩
  | .hbm, ⟨59, _⟩ => ⟨S500000x128, .f32⟩
  | .hbm, ⟨60, _⟩ => ⟨S500000x128, .f32⟩
  | .hbm, ⟨61, _⟩ => ⟨S_, .f32⟩
  | .hbm, ⟨62, _⟩ => ⟨S500000x128, .f32⟩
  | .hbm, ⟨63, _⟩ => ⟨S500000x128, .f32⟩
  | .hbm, ⟨64, _⟩ => ⟨S500000x128, .f32⟩
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_6 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  transposes_S128x6_S6x128_1_0 : S128x6.Transposes [1, 0] S6x128
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x128_S500000x384_d1 : Shape.Concatenates [S500000x128, S500000x128, S500000x128] S500000x384 1
  transposes_S128x384_S384x128_1_0 : S128x384.Transposes [1, 0] S384x128
  gather_S95x128_S100000x1_S100000x128_1_0_n_n_0_1_1128_wf : GatherDims.WF S95x128 S100000x1 S100000x128 [1] [0] [] [0] [] 1 ![1, 128]
  dot_S500000x6_S6x128_S500000x128_1_0_0_1_n_n_wf : DotDims.WF S500000x6 S6x128 S500000x128 [1] [0] [0] [1] [] []
  gather_S100000x128_S500000x1_S500000x128_1_0_n_n_0_1_1128_wf : GatherDims.WF S100000x128 S500000x1 S500000x128 [1] [0] [] [0] [] 1 ![1, 128]
  dot_S500000x384_S384x128_S500000x128_1_0_0_1_n_n_wf : DotDims.WF S500000x384 S384x128 S500000x128 [1] [0] [0] [1] [] []

variable [Facts₀]

def gather_S95x128_S100000x1_S100000x128_1_0_n_n_0_1_1128 : GatherDims S95x128 S100000x1 S100000x128 where
  offsetDims := [1]
  collapsedSliceDims := [0]
  operandBatchingDims := []
  startIndicesBatchingDims := []
  startIndexMap := [0]
  indexVectorDim := 1
  sliceSizes := ![1, 128]
  wf := gather_S95x128_S100000x1_S100000x128_1_0_n_n_0_1_1128_wf
def dot_S500000x6_S6x128_S500000x128_1_0_0_1_n_n : DotDims S500000x6 S6x128 S500000x128 where
  lhsContracting := [1]
  rhsContracting := [0]
  lhsNonContracting := [0]
  rhsNonContracting := [1]
  lhsBatch := []
  rhsBatch := []
  wf := dot_S500000x6_S6x128_S500000x128_1_0_0_1_n_n_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x384_S384x128_S500000x128_1_0_0_1_n_n : DotDims S500000x384 S384x128 S500000x128 where
  lhsContracting := [1]
  rhsContracting := [0]
  lhsNonContracting := [0]
  rhsNonContracting := [1]
  lhsBatch := []
  rhsBatch := []
  wf := dot_S500000x384_S384x128_S500000x128_1_0_0_1_n_n_wf

class Facts : Prop extends Facts₀ where

variable [Facts]
-- ==== Proof.Spec.lean ====
/-
  The mathematics of the edge-embedding block, stated once over the extended reals, with no program in sight.

  For edge `e` with end nodes `i e`, `j e` and output column `c`:
      out e c = sw ( Σ_{k < 384} cat e k · W_lin c k + b_lin c ),      sw s = s · σ(s),
  where row `cat e` is the concatenation of the atom-type embedding rows of the two end nodes and of
      rbfh e k = sw ( Σ_{r < 6} rbf e r · W_rbf k r + b_rbf k ).
  (`Gat`, `G`.)  A table row is named by a signed 32-bit word the way an array index is read: a negative word is moved up by
  the table's extent once, and the result is clamped into the table (`rowOf`).

  The second form (`Kat`) is the same number computed the other way round: the sum over the 384 columns is cut into its three
  blocks of 128; in the first two the embedding row is picked out of the table AFTER the table has been multiplied into
  W_lin's block (M1, M2: rows 95..127 of the padded table are zero), by a sum against the indicator of the atom type
  (`oh`); in the third the radial sum runs over 8 terms, the last two being zero (`rbfPad`, `wrPad`).
  `Kat_eq_Gat`: the two agree whenever the two atom types are in [0, 95). Only the laws of a commutative monoid under +,
  `0 · y = 0` and `1 · y = y` are used, all of which hold at the infinities, so no finiteness is asked.
-/
import Idealize.ShloMosaic.PureOps.Ideal
import Idealize.ShloMosaic.Lib.ValueIdx

noncomputable section

open scoped BigOperators

namespace Cert.Edge

open Idealize.ShloMosaic Idealize.ShloMosaic.ValueIdx

abbrev TN : Shape := ⟨1, ![100000]⟩
abbrev TE : Shape := ⟨1, ![500000]⟩
abbrev TRbf : Shape := ⟨2, ![500000, 6]⟩
abbrev TEmb : Shape := ⟨2, ![95, 128]⟩
abbrev TWr : Shape := ⟨2, ![128, 6]⟩
abbrev TH : Shape := ⟨1, ![128]⟩
abbrev TWl : Shape := ⟨2, ![128, 384]⟩
abbrev TOut : Shape := ⟨2, ![500000, 128]⟩

/-- `s · σ(s)` on the extended reals. -/
def sw (s : EReal) : EReal := s * Ideal.logistic s

/-- A signed word lies in `[0, N)`. -/
def InRange (N : Nat) (w : BitVec 32) : Prop := 0 ≤ w.toInt ∧ w.toInt < (N : Int)

/-- The table row a signed 32-bit word names: a negative word is moved up by the extent once, then the word is read signed
    and clamped into `[0, N - 1]`. -/
def rowOf (N : Nat) (hN : 0 < N) (w : BitVec 32) : Fin N :=
  ⟨min (Scalar.select (IntOp.cmpi .slt w 0#32) (IntOp.addi w (BitVec.ofNat 32 N)) w).toInt.toNat (N - 1), by omega⟩

/-- The embedding row of the node a word names: the node's atom type names a row of the table. -/
def hrow (x : IVec TN 32) (emb : FVec Ideal TEmb .f32) (w : BitVec 32) (k : Fin 128) : EReal :=
  emb (ix2 (rowOf 95 (by decide) (x (ix1 (rowOf 100000 (by decide) w)))) k)

/-- The radial branch: `sw (rbf e · W_rbf k + b_rbf k)`. -/
def rbfh (rbf : FVec Ideal TRbf .f32) (Wr : FVec Ideal TWr .f32) (br : FVec Ideal TH .f32) (e : Fin 500000) (k : Fin 128) : EReal :=
  sw ((∑ r : Fin 6, rbf (ix2 e r) * Wr (ix2 k r)) + br (ix1 k))

/-- Three rows of 128 laid side by side. -/
def cat3 (A B R : Fin 128 → EReal) (k : Fin 384) : EReal :=
  if h : k.val < 128 then A ⟨k.val, h⟩ else if h2 : k.val < 256 then B ⟨k.val - 128, by omega⟩ else R ⟨k.val - 256, by omega⟩

/-- The block's result for edge `e`, column `c`. -/
def Gat (x : IVec TN 32) (rbf : FVec Ideal TRbf .f32) (iI jI : IVec TE 32) (emb : FVec Ideal TEmb .f32) (Wr : FVec Ideal TWr .f32)
    (br : FVec Ideal TH .f32) (Wl : FVec Ideal TWl .f32) (bl : FVec Ideal TH .f32) (e : Fin 500000) (c : Fin 128) : EReal :=
  sw ((∑ k : Fin 384, cat3 (hrow x emb (iI (ix1 e))) (hrow x emb (jI (ix1 e))) (rbfh rbf Wr br e) k * Wl (ix2 c k)) + bl (ix1 c))

/-- The whole result array. -/
def G (x : IVec TN 32) (rbf : FVec Ideal TRbf .f32) (iI jI : IVec TE 32) (emb : FVec Ideal TEmb .f32) (Wr : FVec Ideal TWr .f32)
    (br : FVec Ideal TH .f32) (Wl : FVec Ideal TWl .f32) (bl : FVec Ideal TH .f32) : FVec Ideal TOut .f32 :=
  fun y => Gat x rbf iI jI emb Wr br Wl bl (y 0) (y 1)

theorem G_apply (x : IVec TN 32) (rbf : FVec Ideal TRbf .f32) (iI jI : IVec TE 32) (emb : FVec Ideal TEmb .f32) (Wr : FVec Ideal TWr .f32)
    (br : FVec Ideal TH .f32) (Wl : FVec Ideal TWl .f32) (bl : FVec Ideal TH .f32) (e : Fin 500000) (c : Fin 128) :
    G x rbf iI jI emb Wr br Wl bl (ix2 e c) = Gat x rbf iI jI emb Wr br Wl bl e c := rfl

/-! ## The same number, the other way round -/

/-- The indicator of "lane `v` is the word `w`", as the number 1 or 0: the comparison's bit widened to a word and read as an integer. -/
def oh (w : BitVec 32) (v : Fin 128) : EReal :=
  (((((IntOp.cmpi .eq (BitVec.ofNat 32 v.val) w).setWidth 32).toInt : ℝ)) : EReal)

/-- The embedding table padded with zero rows up to 128. -/
def embPad (emb : FVec Ideal TEmb .f32) (v k : Fin 128) : EReal := if h : v.val < 95 then emb (ix2 (⟨v.val, h⟩ : Fin 95) k) else 0

/-- The padded table times the first block of W_lin, transposed. -/
def M1 (emb : FVec Ideal TEmb .f32) (Wl : FVec Ideal TWl .f32) (v q : Fin 128) : EReal :=
  ∑ k : Fin 128, embPad emb v k * Wl (ix2 q (⟨k.val, by omega⟩ : Fin 384))
/-- The padded table times the second block of W_lin, transposed. -/
def M2 (emb : FVec Ideal TEmb .f32) (Wl : FVec Ideal TWl .f32) (v q : Fin 128) : EReal :=
  ∑ k : Fin 128, embPad emb v k * Wl (ix2 q (⟨128 + k.val, by omega⟩ : Fin 384))
/-- The third block of W_lin, transposed. -/
def W3 (Wl : FVec Ideal TWl .f32) (k q : Fin 128) : EReal := Wl (ix2 q (⟨256 + k.val, by omega⟩ : Fin 384))
/-- The radial features padded with two zero columns. -/
def rbfPad (rbf : FVec Ideal TRbf .f32) (e : Fin 500000) (r : Fin 8) : EReal := if h : r.val < 6 then rbf (ix2 e (⟨r.val, h⟩ : Fin 6)) else 0
/-- W_rbf transposed and padded with two zero rows. -/
def wrPad (Wr : FVec Ideal TWr .f32) (r : Fin 8) (k : Fin 128) : EReal := if h : r.val < 6 then Wr (ix2 k (⟨r.val, h⟩ : Fin 6)) else 0

/-- What the fused tile computes for edge `e`, column `c`, from the two atom-type words `xi`, `xj` it is handed. -/
def Kat (rbf : FVec Ideal TRbf .f32) (emb : FVec Ideal TEmb .f32) (Wr : FVec Ideal TWr .f32)
    (br : FVec Ideal TH .f32) (Wl : FVec Ideal TWl .f32) (bl : FVec Ideal TH .f32) (xi xj : BitVec 32) (e : Fin 500000) (c : Fin 128) : EReal :=
  sw ((((∑ v : Fin 128, oh xi v * M1 emb Wl v c) + ∑ v : Fin 128, oh xj v * M2 emb Wl v c)
        + ∑ k : Fin 128, sw ((∑ r : Fin 8, rbfPad rbf e r * wrPad Wr r k) + br (ix1 k)) * W3 Wl k c) + bl (ix1 c))

end Cert.Edge

end
-- ==== Proof.SpecLaws.lean ====
/-
  The laws that join the two forms of the edge-embedding block's result (Spec.lean): a word in range names the row of its
  own value; a sum against an indicator picks one term; a sum over three rows laid side by side splits in three; two zero
  terms drop out of a sum of eight; and, from these, `Kat = Gat` when both atom types are in [0, 95).
  Everything is on the extended reals and uses only that + is a commutative monoid and that 0 · y = 0, 1 · y = y.
-/
import proofs.«401799_j77524159693443_3_alg».proof.Proof.Spec
import Idealize.ShloMosaic.Lib.StableHlo.Predicate

noncomputable section

open scoped BigOperators

namespace Cert.Edge

open Idealize.ShloMosaic Idealize.ShloMosaic.ValueIdx
open Idealize.ShloMosaic.StableHlo

/-- A word whose signed reading is non-negative is below 2³¹. -/
private theorem toNat_lt_of_toInt_nonneg {w : BitVec 32} (h0 : 0 ≤ w.toInt) : w.toNat < 2 ^ 31 := by
  have hw := w.isLt
  rw [BitVec.toInt_eq_toNat_cond] at h0
  split at h0 <;> omega

/-- A word in `[0, N)` names the row of its own value. -/
theorem rowOf_of_inRange (N : Nat) (hN : 0 < N) (hN' : N < 2 ^ 31) (w : BitVec 32) (h : InRange N w) :
    (rowOf N hN w).val = w.toNat := by
  obtain ⟨h0, h1⟩ := h
  have hlt : w.toNat < 2 ^ 31 := toNat_lt_of_toInt_nonneg h0
  have hInt : w.toInt = (w.toNat : Int) := Predicate.toInt_eq_toNat_of_lt hlt
  -- the sign test fails: the word is not below zero
  have hc : IntOp.cmpi .slt w 0#32 ≠ 1#1 := by
    intro hc
    have h2 := (Predicate.slt_iff_toNat (a := w) (b := 0#32) hlt (by decide)).mp hc
    exact absurd h2 (Nat.not_lt_zero _)
  have hsel : Scalar.select (IntOp.cmpi .slt w 0#32) (IntOp.addi w (BitVec.ofNat 32 N)) w = w := by
    unfold Scalar.select
    exact if_neg hc
  show min (Scalar.select (IntOp.cmpi .slt w 0#32) (IntOp.addi w (BitVec.ofNat 32 N)) w).toInt.toNat (N - 1) = w.toNat
  rw [hsel, hInt, Int.toNat_natCast]
  rw [hInt] at h1
  omega

theorem InRange.toNat_lt {N : Nat} {w : BitVec 32} (h : InRange N w) : w.toNat < N := by
  obtain ⟨h0, h1⟩ := h
  have hlt : w.toNat < 2 ^ 31 := toNat_lt_of_toInt_nonneg h0
  rw [Predicate.toInt_eq_toNat_of_lt hlt] at h1
  omega

/-- The indicator is 1 on the lane that is the word and 0 elsewhere. -/
theorem oh_eq (w : BitVec 32) (v : Fin 128) : oh w v = if w = BitVec.ofNat 32 v.val then 1 else 0 := by
  unfold oh
  by_cases h : w = BitVec.ofNat 32 v.val
  · rw [if_pos h]
    have hc : IntOp.cmpi .eq (BitVec.ofNat 32 v.val) w = 1#1 := Predicate.cmpi_eq_iff.mpr h.symm
    have h1 : ((1#1 : BitVec 1).setWidth 32).toInt = 1 := by decide
    rw [hc, h1, Int.cast_one, EReal.coe_one]
  · rw [if_neg h]
    have hb : (BitVec.ofNat 32 v.val == w) = false := by
      rw [beq_eq_false_iff_ne]
      exact fun h' => h h'.symm
    have hc : IntOp.cmpi .eq (BitVec.ofNat 32 v.val) w = 0#1 := by
      unfold IntOp.cmpi
      simp only [hb]
      rfl
    have h0 : ((0#1 : BitVec 1).setWidth 32).toInt = 0 := by decide
    rw [hc, h0, Int.cast_zero, EReal.coe_zero]

/-- A sum against the indicator of an atom type in [0, 128) picks that lane. -/
theorem sum_oh (w : BitVec 32) (hw : w.toNat < 128) (M : Fin 128 → EReal) : ∑ v : Fin 128, oh w v * M v = M ⟨w.toNat, hw⟩ := by
  rw [Finset.sum_eq_single (⟨w.toNat, hw⟩ : Fin 128)]
  · have he : w = BitVec.ofNat 32 (⟨w.toNat, hw⟩ : Fin 128).val := by
      apply BitVec.eq_of_toNat_eq
      rw [BitVec.toNat_ofNat]
      show w.toNat = w.toNat % 2 ^ 32
      omega
    rw [oh_eq, if_pos he, one_mul]
  · intro v _ hv
    have hne : ¬ w = BitVec.ofNat 32 v.val := by
      intro h
      apply hv
      apply Fin.ext
      show v.val = w.toNat
      have hv' := v.isLt
      rw [h, BitVec.toNat_ofNat]
      omega
    rw [oh_eq, if_neg hne, zero_mul]
  · intro h
    exact absurd (Finset.mem_univ _) h

/-- A sum over 384 terms is the sum of its three blocks of 128. -/
private theorem sum_three (f : Fin 384 → EReal) :
    ∑ k : Fin 384, f k
      = ((∑ k : Fin 128, f ⟨k.val, by omega⟩) + ∑ k : Fin 128, f ⟨128 + k.val, by omega⟩) + ∑ k : Fin 128, f ⟨256 + k.val, by omega⟩ := by
  have h1 : ∑ k : Fin 384, f k = (∑ i : Fin 256, f (Fin.castAdd 128 i)) + ∑ i : Fin 128, f (Fin.natAdd 256 i) :=
    Fin.sum_univ_add (M := EReal) (a := 256) (b := 128) f
  have h2 : ∑ i : Fin 256, f (Fin.castAdd 128 i)
      = (∑ i : Fin 128, f (Fin.castAdd 128 (Fin.castAdd 128 i))) + ∑ i : Fin 128, f (Fin.castAdd 128 (Fin.natAdd 128 i)) :=
    Fin.sum_univ_add (M := EReal) (a := 128) (b := 128) (fun i : Fin 256 => f (Fin.castAdd 128 i))
  rw [h1, h2]
  rfl

/-- A sum over three rows laid side by side is the sum of the three sums. -/
theorem sum_cat3 (A B R : Fin 128 → EReal) (W : Fin 384 → EReal) :
    ∑ k : Fin 384, cat3 A B R k * W k
      = ((∑ k : Fin 128, A k * W ⟨k.val, by omega⟩) + ∑ k : Fin 128, B k * W ⟨128 + k.val, by omega⟩) + ∑ k : Fin 128, R k * W ⟨256 + k.val, by omega⟩ := by
  rw [sum_three (fun k => cat3 A B R k * W k)]
  have hA : ∀ k : Fin 128, cat3 A B R (⟨k.val, by omega⟩ : Fin 384) = A k := by
    intro k
    unfold cat3
    exact dif_pos k.isLt
  have hB : ∀ k : Fin 128, cat3 A B R (⟨128 + k.val, by omega⟩ : Fin 384) = B k := by
    intro k
    have hk := k.isLt
    unfold cat3
    rw [dif_neg (by show ¬ 128 + k.val < 128; omega), dif_pos (by show 128 + k.val < 256; omega)]
    exact congrArg B (Fin.ext (by show 128 + k.val - 128 = k.val; omega))
  have hR : ∀ k : Fin 128, cat3 A B R (⟨256 + k.val, by omega⟩ : Fin 384) = R k := by
    intro k
    have hk := k.isLt
    unfold cat3
    rw [dif_neg (by show ¬ 256 + k.val < 128; omega), dif_neg (by show ¬ 256 + k.val < 256; omega)]
    exact congrArg R (Fin.ext (by show 256 + k.val - 256 = k.val; omega))
  simp only [hA, hB, hR]

/-- Two zero terms at the end of a sum of eight. -/
theorem sum_pad8 (rbf : FVec Ideal TRbf .f32) (Wr : FVec Ideal TWr .f32) (e : Fin 500000) (k : Fin 128) :
    ∑ r : Fin 8, rbfPad rbf e r * wrPad Wr r k = ∑ r : Fin 6, rbf (ix2 e r) * Wr (ix2 k r) := by
  have h1 : ∑ r : Fin 8, rbfPad rbf e r * wrPad Wr r k
      = (∑ r : Fin 6, rbfPad rbf e (Fin.castAdd 2 r) * wrPad Wr (Fin.castAdd 2 r) k)
        + ∑ r : Fin 2, rbfPad rbf e (Fin.natAdd 6 r) * wrPad Wr (Fin.natAdd 6 r) k :=
    Fin.sum_univ_add (M := EReal) (a := 6) (b := 2) (fun r : Fin 8 => rbfPad rbf e r * wrPad Wr r k)
  -- the two padded terms are 0 · 0
  have h2 : ∑ r : Fin 2, rbfPad rbf e (Fin.natAdd 6 r) * wrPad Wr (Fin.natAdd 6 r) k = 0 := by
    refine Finset.sum_eq_zero fun r _ => ?_
    have hz : rbfPad rbf e (Fin.natAdd 6 r) = 0 := by
      unfold rbfPad
      exact dif_neg (by show ¬ 6 + r.val < 6; omega)
    rw [hz, zero_mul]
  rw [h1, h2, add_zero]
  refine Finset.sum_congr rfl fun r _ => ?_
  have hr : (Fin.castAdd 2 r).val < 6 := r.isLt
  have e1 : rbfPad rbf e (Fin.castAdd 2 r) = rbf (ix2 e r) := by
    unfold rbfPad
    rw [dif_pos hr]
    rfl
  have e2 : wrPad Wr (Fin.castAdd 2 r) k = Wr (ix2 k r) := by
    unfold wrPad
    rw [dif_pos hr]
    rfl
  rw [e1, e2]

/-- The padded table's row at an atom type in [0, 95) is the embedding row of the node. -/
private theorem embPad_row (x : IVec TN 32) (emb : FVec Ideal TEmb .f32) (w : BitVec 32)
    (h : InRange 95 (x (ix1 (rowOf 100000 (by decide) w)))) (h128 : (x (ix1 (rowOf 100000 (by decide) w))).toNat < 128)
    (k : Fin 128) :
    embPad emb ⟨(x (ix1 (rowOf 100000 (by decide) w))).toNat, h128⟩ k = hrow x emb w k := by
  have h95 : (x (ix1 (rowOf 100000 (by decide) w))).toNat < 95 := h.toNat_lt
  unfold embPad hrow
  rw [dif_pos h95]
  refine congrArg (fun r : Fin 95 => emb (ix2 r k)) ?_
  exact Fin.ext (rowOf_of_inRange 95 (by decide) (by decide) _ h).symm

/-- THE LAW: the tile's number is the block's number when both atom types are in range. -/
theorem Kat_eq_Gat (x : IVec TN 32) (rbf : FVec Ideal TRbf .f32) (iI jI : IVec TE 32) (emb : FVec Ideal TEmb .f32) (Wr : FVec Ideal TWr .f32)
    (br : FVec Ideal TH .f32) (Wl : FVec Ideal TWl .f32) (bl : FVec Ideal TH .f32) (e : Fin 500000) (c : Fin 128)
    (hi : InRange 95 (x (ix1 (rowOf 100000 (by decide) (iI (ix1 e))))))
    (hj : InRange 95 (x (ix1 (rowOf 100000 (by decide) (jI (ix1 e)))))) :
    Kat rbf emb Wr br Wl bl (x (ix1 (rowOf 100000 (by decide) (iI (ix1 e))))) (x (ix1 (rowOf 100000 (by decide) (jI (ix1 e))))) e c
      = Gat x rbf iI jI emb Wr br Wl bl e c := by
  have hi128 : (x (ix1 (rowOf 100000 (by decide) (iI (ix1 e))))).toNat < 128 := lt_trans hi.toNat_lt (by decide)
  have hj128 : (x (ix1 (rowOf 100000 (by decide) (jI (ix1 e))))).toNat < 128 := lt_trans hj.toNat_lt (by decide)
  unfold Kat Gat
  refine congrArg sw ?_
  refine congrArg (· + bl (ix1 c)) ?_
  rw [sum_cat3 (hrow x emb (iI (ix1 e))) (hrow x emb (jI (ix1 e))) (rbfh rbf Wr br e) (fun k => Wl (ix2 c k))]
  refine congrArg₂ (· + ·) (congrArg₂ (· + ·) ?_ ?_) ?_
  · -- the first block: the indicator picks the row of M1, which is the node's embedding row times W_lin's first block
    rw [sum_oh _ hi128 (fun v => M1 emb Wl v c)]
    unfold M1
    refine Finset.sum_congr rfl fun k _ => ?_
    rw [embPad_row x emb (iI (ix1 e)) hi hi128 k]
  · -- the second block, likewise with M2
    rw [sum_oh _ hj128 (fun v => M2 emb Wl v c)]
    unfold M2
    refine Finset.sum_congr rfl fun k _ => ?_
    rw [embPad_row x emb (jI (ix1 e)) hj hj128 k]
  · -- the third block: the radial sum of eight is the sum of six
    refine Finset.sum_congr rfl fun k _ => ?_
    unfold rbfh W3
    rw [sum_pad8]

end Cert.Edge

end
-- ==== Proof.Payload.lean ====
/-
  What the fused tile computes before the last bias is added, read at one element of the tile. For row p of the tile and
  output column q it is
      Σ_v [v = xi p] · M1 v q  +  Σ_v [v = xj p] · M2 v q  +  Σ_k sw(Σ_r rbf p r · wr r k + br k) · W3 k q,
  the three matrix products as plain sums at the exact values, the comparison against the lane number as the indicator
  `oh`, the changes of float format the identity.
-/
import proofs.«401799_j77524159693443_3_alg».proof.Proof.Gen.KernelIdeal.Skeleton
import proofs.«401799_j77524159693443_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Edge.Payload

open Cert.KernelIdeal Cert.KernelIdeal.Gen Cert.Edge
open Idealize.ShloMosaic Idealize.ShloMosaic.ValueIdx

/-! ## The product with 128 contracted lanes: where its operands are read -/

/-- The left operand's row is the result's row. -/
private theorem lhs_D128_0 (i : S4000x128.Idx) (c : Cert.KernelIdeal.dot_S4000x128_S128x128_S4000x128_1_0_0_1_n_n.contr.Idx) :
    (Cert.KernelIdeal.dot_S4000x128_S128x128_S4000x128_1_0_0_1_n_n.lhsIdx i c 0).val = (i 0).val := by
  unfold DotDims.lhsIdx
  rw [dif_neg (show ¬(0 : Fin S4000x128.rank) ∈ Cert.KernelIdeal.dot_S4000x128_S128x128_S4000x128_1_0_0_1_n_n.lhsBatch by decide), dif_pos (show (0 : Fin S4000x128.rank) ∈ Cert.KernelIdeal.dot_S4000x128_S128x128_S4000x128_1_0_0_1_n_n.lhsNonContracting by decide)]
  rfl
/-- The left operand's column is the contracted lane. -/
private theorem lhs_D128_1 (i : S4000x128.Idx) (c : Cert.KernelIdeal.dot_S4000x128_S128x128_S4000x128_1_0_0_1_n_n.contr.Idx) :
    (Cert.KernelIdeal.dot_S4000x128_S128x128_S4000x128_1_0_0_1_n_n.lhsIdx i c 1).val = (c ⟨0, by decide⟩).val :=
  Cert.KernelIdeal.dot_S4000x128_S128x128_S4000x128_1_0_0_1_n_n.lhsIdx_val_of_single rfl i c
/-- The right operand's row is the contracted lane. -/
private theorem rhs_D128_0 (i : S4000x128.Idx) (c : Cert.KernelIdeal.dot_S4000x128_S128x128_S4000x128_1_0_0_1_n_n.contr.Idx) :
    (Cert.KernelIdeal.dot_S4000x128_S128x128_S4000x128_1_0_0_1_n_n.rhsIdx i c 0).val = (c ⟨0, by decide⟩).val :=
  Cert.KernelIdeal.dot_S4000x128_S128x128_S4000x128_1_0_0_1_n_n.rhsIdx_val_of_single rfl i c
/-- The right operand's column is the result's column. -/
private theorem rhs_D128_1 (i : S4000x128.Idx) (c : Cert.KernelIdeal.dot_S4000x128_S128x128_S4000x128_1_0_0_1_n_n.contr.Idx) :
    (Cert.KernelIdeal.dot_S4000x128_S128x128_S4000x128_1_0_0_1_n_n.rhsIdx i c 1).val = (i 1).val := by
  unfold DotDims.rhsIdx
  rw [dif_neg (show ¬(1 : Fin S128x128.rank) ∈ Cert.KernelIdeal.dot_S4000x128_S128x128_S4000x128_1_0_0_1_n_n.rhsBatch by decide), dif_pos (show (1 : Fin S128x128.rank) ∈ Cert.KernelIdeal.dot_S4000x128_S128x128_S4000x128_1_0_0_1_n_n.rhsNonContracting by decide)]
  rfl

/-- The product into the zero accumulator, read at row `p`, column `q`: the plain sum over the 128 contracted lanes. -/
private theorem mm128_apply (A : FVec Ideal S4000x128 .bf16) (B : FVec Ideal S128x128 .bf16) (p : Fin 4000) (q : Fin 128) :
    matmul (F := Ideal) Cert.KernelIdeal.dot_S4000x128_S128x128_S4000x128_1_0_0_1_n_n none A B (constant (F := Ideal) S4000x128 .f32 0x00000000#32) (ix2 p q)
      = ∑ v : Fin 128, A (ix2 p v) * B (ix2 v q) := by
  simp only [matmul]
  rw [Ideal.matmul_constant_zero_apply, ← Equiv.sum_comp (ValueIdx.contrEquiv1 Cert.KernelIdeal.dot_S4000x128_S128x128_S4000x128_1_0_0_1_n_n 128 rfl rfl).symm]
  refine Finset.sum_congr rfl fun k _ => ?_
  have hk := ValueIdx.contrEquiv1_symm_val Cert.KernelIdeal.dot_S4000x128_S128x128_S4000x128_1_0_0_1_n_n 128 rfl rfl k
  have el : Cert.KernelIdeal.dot_S4000x128_S128x128_S4000x128_1_0_0_1_n_n.lhsIdx (ix2 p q) ((ValueIdx.contrEquiv1 Cert.KernelIdeal.dot_S4000x128_S128x128_S4000x128_1_0_0_1_n_n 128 rfl rfl).symm k) = ix2 p k := funext fun a => Fin.ext (by
    match a with
    | ⟨0, _⟩ => exact lhs_D128_0 _ _
    | ⟨1, _⟩ => exact (lhs_D128_1 _ _).trans hk)
  have er : Cert.KernelIdeal.dot_S4000x128_S128x128_S4000x128_1_0_0_1_n_n.rhsIdx (ix2 p q) ((ValueIdx.contrEquiv1 Cert.KernelIdeal.dot_S4000x128_S128x128_S4000x128_1_0_0_1_n_n 128 rfl rfl).symm k) = ix2 k q := funext fun a => Fin.ext (by
    match a with
    | ⟨0, _⟩ => exact (rhs_D128_0 _ _).trans hk
    | ⟨1, _⟩ => exact rhs_D128_1 _ _)
  rw [el, er]

/-! ## The product with 8 contracted lanes: where its operands are read -/

/-- The left operand's row is the result's row. -/
private theorem lhs_D8_0 (i : S4000x128.Idx) (c : Cert.KernelIdeal.dot_S4000x8_S8x128_S4000x128_1_0_0_1_n_n.contr.Idx) :
    (Cert.KernelIdeal.dot_S4000x8_S8x128_S4000x128_1_0_0_1_n_n.lhsIdx i c 0).val = (i 0).val := by
  unfold DotDims.lhsIdx
  rw [dif_neg (show ¬(0 : Fin S4000x8.rank) ∈ Cert.KernelIdeal.dot_S4000x8_S8x128_S4000x128_1_0_0_1_n_n.lhsBatch by decide), dif_pos (show (0 : Fin S4000x8.rank) ∈ Cert.KernelIdeal.dot_S4000x8_S8x128_S4000x128_1_0_0_1_n_n.lhsNonContracting by decide)]
  rfl
/-- The left operand's column is the contracted lane. -/
private theorem lhs_D8_1 (i : S4000x128.Idx) (c : Cert.KernelIdeal.dot_S4000x8_S8x128_S4000x128_1_0_0_1_n_n.contr.Idx) :
    (Cert.KernelIdeal.dot_S4000x8_S8x128_S4000x128_1_0_0_1_n_n.lhsIdx i c 1).val = (c ⟨0, by decide⟩).val :=
  Cert.KernelIdeal.dot_S4000x8_S8x128_S4000x128_1_0_0_1_n_n.lhsIdx_val_of_single rfl i c
/-- The right operand's row is the contracted lane. -/
private theorem rhs_D8_0 (i : S4000x128.Idx) (c : Cert.KernelIdeal.dot_S4000x8_S8x128_S4000x128_1_0_0_1_n_n.contr.Idx) :
    (Cert.KernelIdeal.dot_S4000x8_S8x128_S4000x128_1_0_0_1_n_n.rhsIdx i c 0).val = (c ⟨0, by decide⟩).val :=
  Cert.KernelIdeal.dot_S4000x8_S8x128_S4000x128_1_0_0_1_n_n.rhsIdx_val_of_single rfl i c
/-- The right operand's column is the result's column. -/
private theorem rhs_D8_1 (i : S4000x128.Idx) (c : Cert.KernelIdeal.dot_S4000x8_S8x128_S4000x128_1_0_0_1_n_n.contr.Idx) :
    (Cert.KernelIdeal.dot_S4000x8_S8x128_S4000x128_1_0_0_1_n_n.rhsIdx i c 1).val = (i 1).val := by
  unfold DotDims.rhsIdx
  rw [dif_neg (show ¬(1 : Fin S8x128.rank) ∈ Cert.KernelIdeal.dot_S4000x8_S8x128_S4000x128_1_0_0_1_n_n.rhsBatch by decide), dif_pos (show (1 : Fin S8x128.rank) ∈ Cert.KernelIdeal.dot_S4000x8_S8x128_S4000x128_1_0_0_1_n_n.rhsNonContracting by decide)]
  rfl

/-- The product into the zero accumulator, read at row `p`, column `q`: the plain sum over the 8 contracted lanes. -/
private theorem mm8_apply (A : FVec Ideal S4000x8 .bf16) (B : FVec Ideal S8x128 .bf16) (p : Fin 4000) (q : Fin 128) :
    matmul (F := Ideal) Cert.KernelIdeal.dot_S4000x8_S8x128_S4000x128_1_0_0_1_n_n none A B (constant (F := Ideal) S4000x128 .f32 0x00000000#32) (ix2 p q)
      = ∑ v : Fin 8, A (ix2 p v) * B (ix2 v q) := by
  simp only [matmul]
  rw [Ideal.matmul_constant_zero_apply, ← Equiv.sum_comp (ValueIdx.contrEquiv1 Cert.KernelIdeal.dot_S4000x8_S8x128_S4000x128_1_0_0_1_n_n 8 rfl rfl).symm]
  refine Finset.sum_congr rfl fun k _ => ?_
  have hk := ValueIdx.contrEquiv1_symm_val Cert.KernelIdeal.dot_S4000x8_S8x128_S4000x128_1_0_0_1_n_n 8 rfl rfl k
  have el : Cert.KernelIdeal.dot_S4000x8_S8x128_S4000x128_1_0_0_1_n_n.lhsIdx (ix2 p q) ((ValueIdx.contrEquiv1 Cert.KernelIdeal.dot_S4000x8_S8x128_S4000x128_1_0_0_1_n_n 8 rfl rfl).symm k) = ix2 p k := funext fun a => Fin.ext (by
    match a with
    | ⟨0, _⟩ => exact lhs_D8_0 _ _
    | ⟨1, _⟩ => exact (lhs_D8_1 _ _).trans hk)
  have er : Cert.KernelIdeal.dot_S4000x8_S8x128_S4000x128_1_0_0_1_n_n.rhsIdx (ix2 p q) ((ValueIdx.contrEquiv1 Cert.KernelIdeal.dot_S4000x8_S8x128_S4000x128_1_0_0_1_n_n 8 rfl rfl).symm k) = ix2 k q := funext fun a => Fin.ext (by
    match a with
    | ⟨0, _⟩ => exact (rhs_D8_0 _ _).trans hk
    | ⟨1, _⟩ => exact rhs_D8_1 _ _)
  rw [el, er]

/-! ## The lane number, the spread column, the indicator -/

/-- The lane number read at row `p`, lane `v` is `v`. -/
private theorem iota_at (p : Fin 4000) (v : Fin 128) :
    iota .tc S4000x128 32 [1] iota_S4000x128_d1_w32 (ix2 p v) = BitVec.ofNat 32 v.val :=
  iota_single_apply .tc S4000x128 32 1 iota_S4000x128_d1_w32 (ix2 p v)

/-- A column of words spread over the lanes reads, at row `p`, the column's word of row `p`. -/
private theorem bcol_at (w : IVec S4000x1 32) (p : Fin 4000) (v : Fin 128) :
    broadcastTo S4000x128 w broadcasts_S4000x1_S4000x128 (ix2 p v) = w (ix2 p (0 : Fin 1)) := by
  refine broadcastTo_apply w broadcasts_S4000x1_S4000x128 (ix2 p v) (ix2 p (0 : Fin 1)) fun ax => ?_
  match ax with
  | ⟨0, _⟩ =>
    show p.val = if (4000 : Nat) = 1 then 0 else p.val
    rw [if_neg (by decide)]
  | ⟨1, _⟩ => rfl

/-- The left operand of the first two products at row `p`, lane `v`: the indicator of "lane `v` is the word of row `p`". -/
private theorem onehot_at (w : IVec S4000x1 32) (p : Fin 4000) (v : Fin 128) :
    (truncf .bf16 (sitofp (F := Ideal) .f32 (extui 32 (cmpi .eq (iota .tc S4000x128 32 [1] iota_S4000x128_d1_w32)
        (broadcastTo S4000x128 (shapeCast S4000x1 w shapeCasts_S4000x1_S4000x1) broadcasts_S4000x1_S4000x128)) natLt_1_32)) bitsLt_bf16_f32
      : FVec Ideal S4000x128 .bf16) (ix2 p v) = oh (w (ix2 p (0 : Fin 1))) v := by
  show ((((IntOp.cmpi .eq (iota .tc S4000x128 32 [1] iota_S4000x128_d1_w32 (ix2 p v))
      (broadcastTo S4000x128 (shapeCast S4000x1 w shapeCasts_S4000x1_S4000x1) broadcasts_S4000x1_S4000x128 (ix2 p v))).setWidth 32).toInt : ℝ) : EReal) = _
  rw [iota_at, bcol_at, shapeCast_self]
  rfl

/-! ## The radial branch before its `sw` -/

/-- The third product's left operand before `sw`, at row `p`, lane `k`: the 8-lane sum plus the bias of lane `k`. -/
private theorem pre_at (P4 : FVec Ideal S4000x8 .bf16) (P5 : FVec Ideal S8x128 .bf16) (P6 : FVec Ideal S1x128 .f32) (p : Fin 4000) (k : Fin 128) :
    addf (matmul (F := Ideal) Cert.KernelIdeal.dot_S4000x8_S8x128_S4000x128_1_0_0_1_n_n none (shapeCast S4000x8 P4 shapeCasts_S4000x8_S4000x8) (shapeCast S8x128 P5 shapeCasts_S8x128_S8x128)
        (constant (F := Ideal) S4000x128 .f32 0x00000000#32))
      (broadcastTo S4000x128 (shapeCast S1x128 P6 shapeCasts_S1x128_S1x128) broadcasts_S1x128_S4000x128) (ix2 p k)
      = (∑ r : Fin 8, (P4 (ix2 p r) : EReal) * (P5 (ix2 r k) : EReal)) + (P6 (ix2 (0 : Fin 1) k) : EReal) := by
  refine (addf_apply _ _ _).trans (congrArg₂ (· + ·) ?_ ?_)
  · rw [shapeCast_self, shapeCast_self]
    exact mm8_apply P4 P5 p k
  · rw [shapeCast_self]
    exact broadcastTo_1b_ab_apply P6 broadcasts_S1x128_S4000x128 p k

/-! ## The accumulator -/

/-- The tile's accumulator at row `p`, column `q`, over the nine loaded blocks as variables. -/
theorem pay2_apply (P0 P1 : Vec Ideal S4000x1 .i32) (P2 P3 : Vec Ideal S128x128 .bf16) (P4 : Vec Ideal S4000x8 .bf16)
    (P5 : Vec Ideal S8x128 .bf16) (P6 : Vec Ideal S1x128 .f32) (P7 : Vec Ideal S128x128 .bf16) (p : Fin 4000) (q : Fin 128) :
    k0_pay2 (F := Ideal) P0 P1 P2 P3 P4 P5 P6 P7 (ix2 p q)
      = ((∑ v : Fin 128, oh (P0 (ix2 p (0 : Fin 1))) v * (P2 (ix2 v q) : EReal)) + ∑ v : Fin 128, oh (P1 (ix2 p (0 : Fin 1))) v * (P3 (ix2 v q) : EReal))
        + ∑ k : Fin 128, sw ((∑ r : Fin 8, (P4 (ix2 p r) : EReal) * (P5 (ix2 r k) : EReal)) + (P6 (ix2 (0 : Fin 1) k) : EReal)) * (P7 (ix2 k q) : EReal) := by
  unfold k0_pay2
  refine (addf_apply _ _ _).trans (congrArg₂ (· + ·) ((addf_apply _ _ _).trans (congrArg₂ (· + ·) ?_ ?_)) ?_)
  · refine (mm128_apply _ _ p q).trans (Finset.sum_congr rfl fun v _ => ?_)
    exact congrArg₂ (· * ·) (onehot_at P0 p v) (congrFun (shapeCast_self P2 shapeCasts_S128x128_S128x128) (ix2 v q))
  · refine (mm128_apply _ _ p q).trans (Finset.sum_congr rfl fun v _ => ?_)
    exact congrArg₂ (· * ·) (onehot_at P1 p v) (congrFun (shapeCast_self P3 shapeCasts_S128x128_S128x128) (ix2 v q))
  · refine (mm128_apply _ _ p q).trans (Finset.sum_congr rfl fun k _ => ?_)
    refine congrArg₂ (· * ·) ?_ (congrFun (shapeCast_self P7 shapeCasts_S128x128_S128x128) (ix2 k q))
    exact congrArg sw (pre_at P4 P5 P6 p k)

end Cert.Edge.Payload

end
-- ==== Proof.HostIds.lean ====
/-
  The two columns of atom types the fused tile is handed, read off the host operations in front of it.
  Column 0 of the [500000, 2] array is the atom type of edge e's first end node, column 1 that of its second: each is a
  "take" of the atom-type array at the node word (a negative word moved up once, the array read at the clamped word, and
  the fill value kept where the moved word is outside the array). For a node word in [0, 100000) the fill never shows.
-/
import proofs.«401799_j77524159693443_3_alg».proof.Proof.Gen.KernelIdeal.Frame
import proofs.«401799_j77524159693443_3_alg».proof.Proof.Spec
import Idealize.ShloMosaic.Lib.ValueIdx
import Idealize.ShloMosaic.Lib.Pipeline.Value
import Idealize.ShloMosaic.Lib.StableHlo.Run
import Idealize.ShloMosaic.Lib.StableHlo.Predicate

noncomputable section

open scoped BigOperators

namespace Cert.Edge.Host

open Cert.KernelIdeal Cert.KernelIdeal.Gen Cert.Edge
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The take of a table of 100000 words at 500000 node words: a negative word is moved up by the extent once, the table
    is read at the moved word clamped into the table, and where the moved word lies outside the table the fill value
    (the least signed word) stands in place of the table's word. -/
private def take (x : IVec S100000 32) (w : IVec S500000 32) : IVec S500000 32 :=
  let w' : IVec S500000 32 :=
    select (cmpi .slt w (broadcastInDim S500000 ![] bcast_S_S500000 (constantI S_ 32 0#32)))
      (addi w (broadcastInDim S500000 ![] bcast_S_S500000 (constantI S_ 32 100000#32))) w
  let col : IVec S500000x1 32 := broadcastInDim S500000x1 ![0] bcast_S500000_S500000x1_0 w'
  let lo : IVec S500000x1 1 := cmpi .sge col (broadcastInDim S500000x1 ![] bcast_S_S500000x1 (constantI S_ 32 0#32))
  let hi : IVec S500000x1 1 := cmpi .sle col
    (broadcastInDim S500000x1 ![0, 1] bcast_S1x1_S500000x1_0_1 (broadcastInDim S1x1 ![1] bcast_S1_S1x1_1 (constantI S1 32 99999#32)))
  let inb : IVec S500000 1 := Host.reduce IntOp.andi (andi lo hi) (constantI S_ 1 1#1) reducesTo_S500000x1_S500000_d1 h_S_
  select inb (Host.gather gather_S100000_S500000x1_S500000_n_0_n_n_0_1_1 x col)
    (broadcastInDim S500000 ![] bcast_S_S500000 (constantI S_ 32 2147483648#32))

/-- Contents moved to a buffer's own type and back are the contents. -/
private theorem ofBuf_toBuf {T : BufTy} (x : TRef sig T) (v : T.Contents (Elt Ideal)) : x.ofBuf (x.toBuf v) = v := by
  simp only [TRef.ofBuf, TRef.toBuf, cast_cast, cast_eq]

/-- At these literal buffers the moves are the identity. -/
private theorem toBuf_v0 (v : IVec S500000 32) :
    ((TRef.of main_v0 : TRef sig ⟨S500000, .i32⟩).toBuf (Val := Elt Ideal) v : IVec S500000 32) = v := rfl
private theorem toBuf_v1 (v : IVec S500000 32) :
    ((TRef.of main_v1 : TRef sig ⟨S500000, .i32⟩).toBuf (Val := Elt Ideal) v : IVec S500000 32) = v := rfl
private theorem ofBuf_arg0 (F : Valuation τ sig (Elt Ideal)) :
    (TRef.of main_arg0 : TRef sig ⟨S100000, .i32⟩).ofBuf (F (Proc.devRef .tc main_arg0))
      = (F (Proc.devRef .tc main_arg0) : IVec S100000 32) := rfl
private theorem ofBuf_arg2 (F : Valuation τ sig (Elt Ideal)) :
    (TRef.of main_arg2 : TRef sig ⟨S500000, .i32⟩).ofBuf (F (Proc.devRef .tc main_arg2))
      = (F (Proc.devRef .tc main_arg2) : IVec S500000 32) := rfl
private theorem ofBuf_arg3 (F : Valuation τ sig (Elt Ideal)) :
    (TRef.of main_arg3 : TRef sig ⟨S500000, .i32⟩).ofBuf (F (Proc.devRef .tc main_arg3))
      = (F (Proc.devRef .tc main_arg3) : IVec S500000 32) := rfl

/-- What the first take writes, -/
private theorem after0_v0 (F : Valuation τ sig (Elt Ideal)) :
    (after hostOps0 F (Proc.devRef .tc main_v0) : IVec S500000 32)
      = take (F (Proc.devRef .tc main_arg0)) (F (Proc.devRef .tc main_arg2)) := by
  after_results_simp
  simp only [ofBuf_toBuf]
  rw [toBuf_v0, ofBuf_arg0, ofBuf_arg2]
  rfl
/-- and two arrays it leaves alone. -/
private theorem after0_arg0 (F : Valuation τ sig (Elt Ideal)) :
    after hostOps0 F (Proc.devRef .tc main_arg0) = F (Proc.devRef .tc main_arg0) := by
  after_results_simp
private theorem after0_arg3 (F : Valuation τ sig (Elt Ideal)) :
    after hostOps0 F (Proc.devRef .tc main_arg3) = F (Proc.devRef .tc main_arg3) := by
  after_results_simp

/-- What the second take writes, -/
private theorem after1_v1 (F : Valuation τ sig (Elt Ideal)) :
    (after hostOps0_1 F (Proc.devRef .tc main_v1) : IVec S500000 32)
      = take (F (Proc.devRef .tc main_arg0)) (F (Proc.devRef .tc main_arg3)) := by
  after_results_simp
  simp only [ofBuf_toBuf]
  rw [toBuf_v1, ofBuf_arg0, ofBuf_arg3]
  rfl
/-- and that it leaves the first take's result alone. -/
private theorem after1_v0 (F : Valuation τ sig (Elt Ideal)) :
    after hostOps0_1 F (Proc.devRef .tc main_v0) = F (Proc.devRef .tc main_v0) := by
  after_results_simp

/-- The two results as columns, side by side. -/
private theorem after2_v4 (G : Valuation τ sig (Elt Ideal)) :
    (after hostOps0_2 G (Proc.devRef .tc main_v4) : S500000x2.Idx → BitVec 32)
      = concatenate S500000x2 1
          [⟨S500000x1, broadcastInDim S500000x1 ![0] bcast_S500000_S500000x1_0 (G (Proc.devRef .tc main_v0) : S500000.Idx → BitVec 32)⟩,
           ⟨S500000x1, broadcastInDim S500000x1 ![0] bcast_S500000_S500000x1_0 (G (Proc.devRef .tc main_v1) : S500000.Idx → BitVec 32)⟩]
          concatenates_S500000x1_S500000x1_S500000x2_d1 := by
  after_results_simp
  rfl

/-- No later host operation writes the pair of columns. -/
private theorem afterTail_v4 (G : Valuation τ sig (Elt Ideal)) :
    after (List.flatten [hostOps0_3, hostOps0_4, hostOps0_5, hostOps0_6, hostOps0_7, hostOps0_8]) G (Proc.devRef .tc main_v4)
      = G (Proc.devRef .tc main_v4) := by
  simp only [List.flatten_cons, List.flatten_nil, List.append_nil, StableHlo.after_append]
  after_results_simp

/-- The two spellings of a rank-1 index. -/
private theorem ofFin_eq_ix1 {n : Nat} (k : Fin n) : Shape.Idx.ofFin k = ix1 k := by
  funext d; match d with | ⟨0, _⟩ => rfl

/-- Elementwise operations and broadcasts of constants, read at an index. -/
private theorem andi_at {s : Shape} {n : Nat} (a b : IVec s n) (i : s.Idx) : andi a b i = IntOp.andi (a i) (b i) := rfl
private theorem addi_at {s : Shape} {n : Nat} (a b : IVec s n) (i : s.Idx) : addi a b i = IntOp.addi (a i) (b i) := rfl
private theorem cmpi_at {s : Shape} {n : Nat} (p : CmpIPredicate) (a b : IVec s n) (i : s.Idx) :
    cmpi p a b i = IntOp.cmpi p (a i) (b i) := rfl
private theorem constantI_at {s : Shape} {n : Nat} (b : BitVec n) (i : s.Idx) : constantI s n b i = b := rfl
private theorem bcast_const {s t : Shape} {n : Nat} (dims : Fin s.rank → Fin t.rank) (h : s.BroadcastsInDim t dims) (b : BitVec n)
    (j : t.Idx) : broadcastInDim t dims h (constantI s n b) j = b := rfl
private theorem bcast_const_eq {s t : Shape} {n : Nat} (dims : Fin s.rank → Fin t.rank) (h : s.BroadcastsInDim t dims) (b : BitVec n) :
    broadcastInDim t dims h (constantI s n b) = constantI t n b := rfl

/-- A word in `[0, 100000)` is not negative, and it passes both range comparisons. -/
private theorem word_cmp (a : BitVec 32) (h : InRange 100000 a) :
    IntOp.cmpi .slt a 0#32 = 0#1 ∧ IntOp.cmpi .sge a 0#32 = 1#1 ∧ IntOp.cmpi .sle a 99999#32 = 1#1 := by
  obtain ⟨h0, h1⟩ := h
  have z : (0#32 : BitVec 32).toInt = 0 := by decide
  have n : (99999#32 : BitVec 32).toInt = 99999 := by decide
  refine ⟨?_, ?_, ?_⟩
  · simp only [IntOp.cmpi, BitVec.slt, z]; rw [decide_eq_false (by omega)]; rfl
  · simp only [IntOp.cmpi, BitVec.sle, z]; rw [decide_eq_true h0]; rfl
  · simp only [IntOp.cmpi, BitVec.sle, n]; rw [decide_eq_true (by omega)]; rfl

/-- A left fold by `and` from 1 over words that are all 1 is 1. -/
private theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- The reduce by `and` along the unit axis of a column is 1 at row `e` when the column is 1 at row `e`. -/
private theorem inb_one (p : IVec S500000x1 1) (e : Fin 500000) (hp : p (Predicate.ixP e) = 1#1) :
    Host.reduce IntOp.andi p (constantI S_ 1 1#1) reducesTo_S500000x1_S500000_d1 h_S_ (ix1 e) = 1#1 := by
  rw [Host.reduce_eq_foldl]
  refine foldl_andi_one p _ fun i hi => ?_
  have hd : reducesTo_S500000x1_S500000_d1.drop i = ix1 e := by simpa using (List.mem_filter.1 hi).2
  have hv : ((reducesTo_S500000x1_S500000_d1.drop i) 0 : Nat) = i 0 := Shape.ReducesTo.drop_apply_val _ i 0
  have hi' : i = Predicate.ixP e := by
    funext b
    match b with
    | ⟨0, _⟩ => apply Fin.ext; rw [hd] at hv; exact hv.symm
    | ⟨1, hb⟩ =>
      apply Fin.ext
      have h1 : (i ⟨1, hb⟩).val < 1 := (i ⟨1, hb⟩).isLt
      show (i ⟨1, hb⟩).val = 0
      omega
  rw [hi']; exact hp

/-- The take at a node word in the table's range: the table's word at the row the word names. -/
private theorem take_apply (x : IVec S100000 32) (w : IVec S500000 32) (e : Fin 500000) (h : InRange 100000 (w (ix1 e))) :
    take x w (ix1 e) = x (ix1 (rowOf 100000 (by decide) (w (ix1 e)))) := by
  obtain ⟨hlt, hge, hle⟩ := word_cmp _ h
  have hcol : ∀ v : IVec S500000 32, broadcastInDim S500000x1 ![0] bcast_S500000_S500000x1_0 v (Predicate.ixP e) = v (ix1 e) :=
    fun v => by rw [Predicate.bcast_col1, ofFin_eq_ix1]
  unfold take
  dsimp only
  rw [select_apply, inb_one _ e ?hp, select_one]
  case hp =>
    simp only [andi_at, cmpi_at, addi_at, bcast_const_eq, constantI_at, hcol, select_apply, hlt, select_zero, hge, hle]
    rfl
  have hg := Predicate.gather_take gather_S100000_S500000x1_S500000_n_0_n_n_0_1_1 rfl rfl rfl rfl x
    (broadcastInDim S500000x1 ![0] bcast_S500000_S500000x1_0
      (select (cmpi .slt w (broadcastInDim S500000 ![] bcast_S_S500000 (constantI S_ 32 0#32)))
        (addi w (broadcastInDim S500000 ![] bcast_S_S500000 (constantI S_ 32 100000#32))) w)) e (by decide)
  rw [ofFin_eq_ix1, ofFin_eq_ix1] at hg
  refine hg.trans (congrArg (fun k => x (ix1 k)) (Fin.ext ?_))
  simp only [hcol, select_apply, cmpi_at, addi_at, bcast_const_eq, constantI_at]
  rfl

attribute [local irreducible] take

/-- The three arguments the columns are made from, at their literal types. -/
private abbrev xA (c : Dev nD) : IVec S100000 32 := m ((c : Thread nD τ).loc main_arg0)
private abbrev wI (c : Dev nD) : IVec S500000 32 := m ((c : Thread nD τ).loc main_arg2)
private abbrev wJ (c : Dev nD) : IVec S500000 32 := m ((c : Thread nD τ).loc main_arg3)

/-- The pair of columns the region finds, as a term of the three arguments it is made from. -/
private theorem V_main_v4 (c : Dev nD) :
    (V m c main_v4 : S500000x2.Idx → BitVec 32)
      = concatenate S500000x2 1
          [⟨S500000x1, broadcastInDim S500000x1 ![0] bcast_S500000_S500000x1_0 (take (xA m c) (wI m c))⟩,
           ⟨S500000x1, broadcastInDim S500000x1 ![0] bcast_S500000_S500000x1_0 (take (xA m c) (wJ m c))⟩]
          concatenates_S500000x1_S500000x1_S500000x2_d1 := by
  unfold Gen.V
  rw [List.flatten_cons, StableHlo.after_append, List.flatten_cons, StableHlo.after_append, List.flatten_cons, StableHlo.after_append,
    afterTail_v4, after2_v4, after1_v0, after0_v0, after1_v1, after0_arg0, after0_arg3]

/-- A column made of a vector reads, at row `e`, the vector at `e`. -/
private theorem col_apply (v : IVec S500000 32) (e : Fin 500000) :
    broadcastInDim S500000x1 ![0] bcast_S500000_S500000x1_0 v (ix2 e (0 : Fin 1)) = v (ix1 e) :=
  broadcastInDim_apply ![0] bcast_S500000_S500000x1_0 v (ix2 e (0 : Fin 1)) (ix1 e) fun a => by
    match a with
    | ⟨0, _⟩ => exact (if_neg (show ¬ (500000 : Nat) = 1 by decide)).symm

/-- Column 0, row e: the atom type of the node `i e` names, when `i e` is a node. -/
theorem xij_left (c : Dev nD) (e : Fin 500000) (h : InRange 100000 (m ((c : Thread nD τ).loc main_arg2) (ix1 e))) :
    (V m c main_v4 : S500000x2.Idx → BitVec 32) (ix2 e (0 : Fin 2))
      = m ((c : Thread nD τ).loc main_arg0) (ix1 (rowOf 100000 (by decide) (m ((c : Thread nD τ).loc main_arg2) (ix1 e)))) := by
  rw [V_main_v4]
  have h1 := concatenate_pair_apply_left (1 : Fin 2)
    (broadcastInDim S500000x1 ![0] bcast_S500000_S500000x1_0 (take (xA m c) (wI m c)))
    (broadcastInDim S500000x1 ![0] bcast_S500000_S500000x1_0 (take (xA m c) (wJ m c)))
    concatenates_S500000x1_S500000x1_S500000x2_d1 (ix2 e (0 : Fin 2)) rfl (ix2 e (0 : Fin 1)) (fun b => by
      match b with
      | ⟨0, _⟩ => rfl
      | ⟨1, _⟩ => rfl)
  have h2 := col_apply (take (xA m c) (wI m c)) e
  have h3 := take_apply (xA m c) (wI m c) e h
  exact h1.trans (h2.trans h3)

/-- Column 1, row e: the atom type of the node `j e` names, when `j e` is a node. -/
theorem xij_right (c : Dev nD) (e : Fin 500000) (h : InRange 100000 (m ((c : Thread nD τ).loc main_arg3) (ix1 e))) :
    (V m c main_v4 : S500000x2.Idx → BitVec 32) (ix2 e (1 : Fin 2))
      = m ((c : Thread nD τ).loc main_arg0) (ix1 (rowOf 100000 (by decide) (m ((c : Thread nD τ).loc main_arg3) (ix1 e)))) := by
  rw [V_main_v4]
  have h1 := concatenate_pair_apply_right (1 : Fin 2)
    (broadcastInDim S500000x1 ![0] bcast_S500000_S500000x1_0 (take (xA m c) (wI m c)))
    (broadcastInDim S500000x1 ![0] bcast_S500000_S500000x1_0 (take (xA m c) (wJ m c)))
    concatenates_S500000x1_S500000x1_S500000x2_d1 (ix2 e (1 : Fin 2)) rfl rfl (ix2 e (0 : Fin 1)) (fun b hb => by
      match b, hb with
      | ⟨0, _⟩, _ => rfl
      | ⟨1, _⟩, hb => exact absurd rfl hb) rfl
  have h2 := col_apply (take (xA m c) (wJ m c)) e
  have h3 := take_apply (xA m c) (wJ m c) e h
  exact h1.trans (h2.trans h3)

end Cert.Edge.Host

end
-- ==== Proof.HostFold.lean ====
/-
  The three 128 x 128 tables the fused tile is handed, read off the host operations in front of it: the embedding table,
  padded with zero rows to 128, times the transposed first and second blocks of W_lin (M1, M2), and the transposed third
  block of W_lin itself (W3).
-/
import proofs.«401799_j77524159693443_3_alg».proof.Proof.Gen.KernelIdeal.Frame
import proofs.«401799_j77524159693443_3_alg».proof.Proof.Spec
import Idealize.ShloMosaic.Lib.ValueIdx
import Idealize.ShloMosaic.Lib.Pipeline.Value
import Idealize.ShloMosaic.Lib.StableHlo.Run
import Idealize.ShloMosaic.Lib.KernelVsHost
import Idealize.ShloMosaic.PureOps.Ideal.Laws

noncomputable section

open scoped BigOperators

namespace Cert.Edge.Host

open Cert.KernelIdeal Cert.KernelIdeal.Gen Cert.Edge
open Idealize.ShloMosaic Idealize.ShloMosaic.TcCoe Idealize.ShloMosaic.ValueIdx Idealize.SL.Sem Idealize.ShloMosaic.StableHlo

variable (m : (ℓ : Loc nD τ sig) → Buf (Elt Ideal) ℓ)

/-! ## The host operations read at an index -/

/-- A column block of `W` cut at offset `o` and transposed reads, at `(k, q)`, `W` at `(q, o + k)`. -/
private theorem blockT_apply (o : Nat) (W : FVec Ideal S128x384 .f32) (hs : S128x384.Slices ![0, o] S128x128)
    (k q : Fin 128) (j : Fin 384) (hj : j.val = o + k.val) :
    transpose S128x128 [1, 0] (extractStridedSlice S128x128 ![0, o] W hs) transposes_S128x128_S128x128_1_0 (ix2 k q) = W (ix2 q j) :=
  (transpose_apply [1, 0] _ transposes_S128x128_S128x128_1_0 (ix2 k q) (ix2 q k) (fun b => match b with
    | ⟨0, _⟩ => rfl
    | ⟨1, _⟩ => rfl)).trans
  (extractStridedSlice_apply _ W hs (ix2 q k) (ix2 q j) (fun a => match a with
    | ⟨0, _⟩ => (Nat.zero_add _).symm
    | ⟨1, _⟩ => hj))

/-- The table with 33 rows of the padding value appended reads the table on its first 95 rows and the padding value below. -/
private theorem padTab_apply (E : FVec Ideal S95x128 .f32) (z : FVec Ideal S_ .f32) (hz : z (Shape.Idx.first h_S_) = 0) (v k : Fin 128) :
    pad S128x128 ![0, 0] ![33, 0] ![0, 0] E z pads_S95x128_S128x128_0330_000 h_S_ (ix2 v k) = embPad E v k := by
  unfold embPad
  by_cases h : v.val < 95
  · rw [dif_pos h]
    exact pad_apply_of_inside _ _ _ E z pads_S95x128_S128x128_0330_000 h_S_ _ (ix2 (⟨v.val, h⟩ : Fin 95) k) (fun a => by
      match a with
      | ⟨0, _⟩ => show v.val = 0 + v.val * (0 + 1); omega
      | ⟨1, _⟩ => show k.val = 0 + k.val * (0 + 1); omega)
  · rw [dif_neg h]
    refine (pad_apply_of_not_inside _ _ _ E z pads_S95x128_S128x128_0330_000 h_S_ _ (0 : Fin 2) (fun hin => h ?_)).trans hz
    have e : (v.val - 0) / 1 < 95 := hin.2.2
    omega

/-- The word 0 converted to a float is the number 0. -/
private theorem zpad_apply (i : S_.Idx) : (sitofp .f32 (constantI S_ 32 0#32) : FVec Ideal S_ .f32) i = 0 := by
  show (((0#32 : BitVec 32).toInt : ℝ) : EReal) = 0
  simp

private theorem lhs_dot_0 (i : S128x128.Idx) (q : dot_S128x128_S128x128_S128x128_1_0_0_1_n_n.contr.Idx) :
    (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
private theorem lhs_dot_1 (i : S128x128.Idx) (q : dot_S128x128_S128x128_S128x128_1_0_0_1_n_n.contr.Idx) :
    (dot_S128x128_S128x128_S128x128_1_0_0_1_n_n.lhsIdx i q 1).val = (q ⟨0, by decide⟩).val :=
  dot_S128x128_S128x128_S128x128_1_0_0_1_n_n.lhsIdx_val_of_single rfl i q
private theorem rhs_dot_0 (i : S128x128.Idx) (q : dot_S128x128_S128x128_S128x128_1_0_0_1_n_n.contr.Idx) :
    (dot_S128x128_S128x128_S128x128_1_0_0_1_n_n.rhsIdx i q 0).val = (q ⟨0, by decide⟩).val :=
  dot_S128x128_S128x128_S128x128_1_0_0_1_n_n.rhsIdx_val_of_single rfl i q
private theorem rhs_dot_1 (i : S128x128.Idx) (q : dot_S128x128_S128x128_S128x128_1_0_0_1_n_n.contr.Idx) :
    (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-- The product of two 128 x 128 arrays read at `(v, q)` is the sum over the shared axis. -/
private theorem dot_apply (A B : FVec Ideal S128x128 .f32) (v q : Fin 128) :
    (Host.dotGeneral (F := Ideal) dot_S128x128_S128x128_S128x128_1_0_0_1_n_n none A B : FVec Ideal S128x128 .f32) (ix2 v q) = ∑ k : Fin 128, A (ix2 v k) * B (ix2 k q) := by
  simp only [Host.dotGeneral]
  rw [Ideal.dotGeneral_apply, ← Equiv.sum_comp (ValueIdx.contrEquiv1 dot_S128x128_S128x128_S128x128_1_0_0_1_n_n 128 rfl rfl).symm]
  refine Finset.sum_congr rfl fun k _ => ?_
  have hk := ValueIdx.contrEquiv1_symm_val dot_S128x128_S128x128_S128x128_1_0_0_1_n_n 128 rfl rfl k
  have el : dot_S128x128_S128x128_S128x128_1_0_0_1_n_n.lhsIdx (ix2 v q) ((ValueIdx.contrEquiv1 dot_S128x128_S128x128_S128x128_1_0_0_1_n_n 128 rfl rfl).symm k) = ix2 v k := funext fun a => Fin.ext (by
    match a with
    | ⟨0, _⟩ => exact lhs_dot_0 _ _
    | ⟨1, _⟩ => exact (lhs_dot_1 _ _).trans hk)
  have er : dot_S128x128_S128x128_S128x128_1_0_0_1_n_n.rhsIdx (ix2 v q) ((ValueIdx.contrEquiv1 dot_S128x128_S128x128_S128x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The three arrays as terms of the arguments -/

/-- The first table: the padded embedding table times the transposed first column block of W_lin. -/
private theorem v11_eq (c : Dev nD) : (V m c main_v11 : S128x128.Idx → EReal) =
    (truncf .bf16 (Host.dotGeneral (F := Ideal) dot_S128x128_S128x128_S128x128_1_0_0_1_n_n none
      (pad S128x128 ![0, 0] ![33, 0] ![0, 0] (m ((c : Thread nD τ).loc main_arg4) : FVec Ideal S95x128 .f32) (sitofp .f32 (constantI S_ 32 0#32) : FVec Ideal S_ .f32) pads_S95x128_S128x128_0330_000 h_S_ : FVec Ideal S128x128 .f32)
      (transpose S128x128 [1, 0] (extractStridedSlice S128x128 ![0, 0] (m ((c : Thread nD τ).loc main_arg7) : FVec Ideal S128x384 .f32) slices_S128x384_S128x128_0_0 : FVec Ideal S128x128 .f32) transposes_S128x128_S128x128_1_0 : FVec Ideal S128x128 .f32) : FVec Ideal S128x128 .f32) bitsLt_bf16_f32 : FVec Ideal S128x128 .bf16) := by
  unfold Gen.V
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- The second table: the padded embedding table times the transposed second column block of W_lin. -/
private theorem v14_eq (c : Dev nD) : (V m c main_v14 : S128x128.Idx → EReal) =
    (truncf .bf16 (Host.dotGeneral (F := Ideal) dot_S128x128_S128x128_S128x128_1_0_0_1_n_n none
      (pad S128x128 ![0, 0] ![33, 0] ![0, 0] (m ((c : Thread nD τ).loc main_arg4) : FVec Ideal S95x128 .f32) (sitofp .f32 (constantI S_ 32 0#32) : FVec Ideal S_ .f32) pads_S95x128_S128x128_0330_000 h_S_ : FVec Ideal S128x128 .f32)
      (transpose S128x128 [1, 0] (extractStridedSlice S128x128 ![0, 128] (m ((c : Thread nD τ).loc main_arg7) : FVec Ideal S128x384 .f32) slices_S128x384_S128x128_0_128 : FVec Ideal S128x128 .f32) transposes_S128x128_S128x128_1_0 : FVec Ideal S128x128 .f32) : FVec Ideal S128x128 .f32) bitsLt_bf16_f32 : FVec Ideal S128x128 .bf16) := by
  unfold Gen.V
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results_simp
  rfl

/-- The third table: the transposed third column block of W_lin. -/
private theorem v16_eq (c : Dev nD) : (V m c main_v16 : S128x128.Idx → EReal) =
    (truncf .bf16 (transpose S128x128 [1, 0] (extractStridedSlice S128x128 ![0, 256] (m ((c : Thread nD τ).loc main_arg7) : FVec Ideal S128x384 .f32) slices_S128x384_S128x128_0_256 : FVec Ideal S128x128 .f32) transposes_S128x128_S128x128_1_0 : FVec Ideal S128x128 .f32) bitsLt_bf16_f32 : FVec Ideal S128x128 .bf16) := by
  unfold Gen.V
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results

/-! ## Read at an index -/

theorem m1_apply (c : Dev nD) (v q : Fin 128) :
    (V m c main_v11 : S128x128.Idx → EReal) (ix2 v q) = M1 (m ((c : Thread nD τ).loc main_arg4)) (m ((c : Thread nD τ).loc main_arg7)) v q := by
  refine (congrFun (v11_eq m c) (ix2 v q)).trans ?_
  refine (truncf_apply (φ := .f32) (ψ := .bf16) _ bitsLt_bf16_f32 _).trans ?_
  refine (dot_apply _ _ v q).trans ?_
  unfold M1
  refine Finset.sum_congr rfl fun k _ => ?_
  exact congrArg₂ (· * ·) (padTab_apply _ _ (zpad_apply _) v k)
    (blockT_apply 0 _ _ k q (⟨k.val, by omega⟩ : Fin 384) (Nat.zero_add _).symm)

theorem m2_apply (c : Dev nD) (v q : Fin 128) :
    (V m c main_v14 : S128x128.Idx → EReal) (ix2 v q) = M2 (m ((c : Thread nD τ).loc main_arg4)) (m ((c : Thread nD τ).loc main_arg7)) v q := by
  refine (congrFun (v14_eq m c) (ix2 v q)).trans ?_
  refine (truncf_apply (φ := .f32) (ψ := .bf16) _ bitsLt_bf16_f32 _).trans ?_
  refine (dot_apply _ _ v q).trans ?_
  unfold M2
  refine Finset.sum_congr rfl fun k _ => ?_
  exact congrArg₂ (· * ·) (padTab_apply _ _ (zpad_apply _) v k)
    (blockT_apply 128 _ _ k q (⟨128 + k.val, by omega⟩ : Fin 384) rfl)

theorem w3_apply (c : Dev nD) (k q : Fin 128) :
    (V m c main_v16 : S128x128.Idx → EReal) (ix2 k q) = W3 (m ((c : Thread nD τ).loc main_arg7)) k q := by
  refine (congrFun (v16_eq m c) (ix2 k q)).trans ?_
  refine (truncf_apply (φ := .f32) (ψ := .bf16) _ bitsLt_bf16_f32 _).trans ?_
  unfold W3
  exact blockT_apply 256 _ _ k q (⟨256 + k.val, by omega⟩ : Fin 384) rfl

end Cert.Edge.Host

end
-- ==== Proof.HostRbf.lean ====
/-
  The radial inputs and the two bias rows the fused tile is handed, read off the host operations in front of it: the
  radial features with two zero columns appended, W_rbf transposed with two zero rows appended, and each bias laid out
  as one row.
-/
import proofs.«401799_j77524159693443_3_alg».proof.Proof.Gen.KernelIdeal.Frame
import proofs.«401799_j77524159693443_3_alg».proof.Proof.Spec
import Idealize.ShloMosaic.Lib.ValueIdx
import Idealize.ShloMosaic.Lib.Pipeline.Value
import Idealize.ShloMosaic.Lib.StableHlo.Run
import Idealize.ShloMosaic.Lib.KernelVsHost
import Idealize.ShloMosaic.Lib.ValueLayout

noncomputable section

open scoped BigOperators

namespace Cert.Edge.Host

open Cert.KernelIdeal Cert.KernelIdeal.Gen Cert.Edge
open Idealize.ShloMosaic Idealize.ShloMosaic.TcCoe Idealize.ShloMosaic.ValueIdx Idealize.SL.Sem Idealize.ShloMosaic.StableHlo

variable (m : (ℓ : Loc nD τ sig) → Buf (Elt Ideal) ℓ)

/-! ## Each array as a term of the launched arrays -/

set_option maxHeartbeats 400000 in
/-- The radial features as the region finds them: two columns of the converted integer zero appended, then narrowed. -/
private theorem V_v18_eq (c : Dev nD) :
    (V m c main_v18 : S500000x8.Idx → EReal)
      = truncf .bf16 (pad S500000x8 ![0, 0] ![0, 2] ![0, 0] (m ((c : Thread nD τ).loc main_arg1) : S500000x6.Idx → EReal)
          (sitofp (F := Ideal) .f32 (constantI S_ 32 0#32)) pads_S500000x6_S500000x8_000_020 h_S_) bitsLt_bf16_f32 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

set_option maxHeartbeats 400000 in
/-- W_rbf as the region finds it: transposed, two rows of the converted integer zero appended, then narrowed. -/
private theorem V_v21_eq (c : Dev nD) :
    (V m c main_v21 : S8x128.Idx → EReal)
      = truncf .bf16 (pad S8x128 ![0, 0] ![2, 0] ![0, 0]
          (transpose S6x128 [1, 0] (m ((c : Thread nD τ).loc main_arg5) : S128x6.Idx → EReal) transposes_S128x6_S6x128_1_0)
          (sitofp (F := Ideal) .f32 (constantI S_ 32 0#32)) pads_S6x128_S8x128_020_000 h_S_) bitsLt_bf16_f32 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

set_option maxHeartbeats 400000 in
/-- The radial bias as the region finds it: the vector laid out as one row. -/
private theorem V_v22_eq (c : Dev nD) :
    (V m c main_v22 : S1x128.Idx → EReal)
      = shapeCast S1x128 (m ((c : Thread nD τ).loc main_arg6) : S128.Idx → EReal) shapeCasts_S128_S1x128 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

set_option maxHeartbeats 400000 in
/-- The linear bias as the region finds it: the vector laid out as one row. -/
private theorem V_v23_eq (c : Dev nD) :
    (V m c main_v23 : S1x128.Idx → EReal)
      = shapeCast S1x128 (m ((c : Thread nD τ).loc main_arg8) : S128.Idx → EReal) shapeCasts_S128_S1x128 := by
  dsimp only [Gen.V]
  simp only [Gen.hostOps0, Gen.hostOps0_1, Gen.hostOps0_2, Gen.hostOps0_3, Gen.hostOps0_4, Gen.hostOps0_5, Gen.hostOps0_6, Gen.hostOps0_7, Gen.hostOps0_8, List.flatten_cons, List.flatten_nil, List.append_nil, List.cons_append, List.nil_append]
  after_results
  rfl

/-! ## Read at an index -/

/-- Column `r < 6` of row `e` is the radial feature; columns 6 and 7 hold the converted integer zero, which is 0. -/
theorem rbf_apply (c : Dev nD) (e : Fin 500000) (r : Fin 8) :
    (V m c main_v18 : S500000x8.Idx → EReal) (ix2 e r) = rbfPad (m ((c : Thread nD τ).loc main_arg1)) e r := by
  refine (congrFun (V_v18_eq m c) _).trans ?_
  refine (truncf_apply (φ := .f32) (ψ := .bf16) _ bitsLt_bf16_f32 (ix2 e r)).trans ?_
  unfold rbfPad
  by_cases h : r.val < 6
  · rw [dif_pos h]
    exact pad_apply_of_inside _ _ _ _ _ pads_S500000x6_S500000x8_000_020 h_S_ (ix2 e r) (ix2 e (⟨r.val, h⟩ : Fin 6))
      (fun a => match a with
        | ⟨0, _⟩ => by show e.val = 0 + e.val * (0 + 1); omega
        | ⟨1, _⟩ => by show r.val = 0 + r.val * (0 + 1); omega)
  · rw [dif_neg h]
    refine (pad_apply_of_not_inside _ _ _ _ _ pads_S500000x6_S500000x8_000_020 h_S_ (ix2 e r) (1 : Fin 2) ?_).trans ?_
    · intro hin
      have h3 : (r.val - 0) / (0 + 1) < 6 := hin.2.2
      omega
    · exact sitofp_zero

/-- Row `r < 6`, column `k` is W_rbf at `(k, r)`; rows 6 and 7 hold the converted integer zero, which is 0. -/
theorem wr_apply (c : Dev nD) (r : Fin 8) (k : Fin 128) :
    (V m c main_v21 : S8x128.Idx → EReal) (ix2 r k) = wrPad (m ((c : Thread nD τ).loc main_arg5)) r k := by
  refine (congrFun (V_v21_eq m c) _).trans ?_
  refine (truncf_apply (φ := .f32) (ψ := .bf16) _ bitsLt_bf16_f32 (ix2 r k)).trans ?_
  unfold wrPad
  by_cases h : r.val < 6
  · rw [dif_pos h]
    refine (pad_apply_of_inside _ _ _ _ _ pads_S6x128_S8x128_020_000 h_S_ (ix2 r k) (ix2 (⟨r.val, h⟩ : Fin 6) k)
      (fun a => match a with
        | ⟨0, _⟩ => by show r.val = 0 + r.val * (0 + 1); omega
        | ⟨1, _⟩ => by show k.val = 0 + k.val * (0 + 1); omega)).trans ?_
    exact transpose_ix2_apply _ transposes_S128x6_S6x128_1_0 (⟨r.val, h⟩ : Fin 6) k
  · rw [dif_neg h]
    refine (pad_apply_of_not_inside _ _ _ _ _ pads_S6x128_S8x128_020_000 h_S_ (ix2 r k) (0 : Fin 2) ?_).trans ?_
    · intro hin
      have h3 : (r.val - 0) / (0 + 1) < 6 := hin.2.2
      omega
    · exact sitofp_zero

theorem br_apply (c : Dev nD) (k : Fin 128) :
    (V m c main_v22 : S1x128.Idx → EReal) (ix2 (0 : Fin 1) k) = m ((c : Thread nD τ).loc main_arg6) (ix1 k) :=
  (congrFun (V_v22_eq m c) _).trans (shapeCast_a_1a_apply _ _ (0 : Fin 1) k)

theorem bl_apply (c : Dev nD) (k : Fin 128) :
    (V m c main_v23 : S1x128.Idx → EReal) (ix2 (0 : Fin 1) k) = m ((c : Thread nD τ).loc main_arg8) (ix1 k) :=
  (congrFun (V_v23_eq m c) _).trans (shapeCast_a_1a_apply _ _ (0 : Fin 1) k)

end Cert.Edge.Host

end
-- ==== Proof.Block.lean ====
/-
  From tiles to the array. Grid point t of the fused call works on edges 4000 t … 4000 t + 3999: its tile of the result
  is rows 4000 t … of the block's function G of the argument arrays (`flushed_eq`); the 125 tiles cover the 500000 rows
  (`cover`); so the result array ends holding G (`final`), and the run is re-posted with that (`run`).
-/
import proofs.«401799_j77524159693443_3_alg».proof.Proof.Gen.KernelIdeal.Value
import proofs.«401799_j77524159693443_3_alg».proof.Proof.Spec
import proofs.«401799_j77524159693443_3_alg».proof.Proof.SpecLaws
import proofs.«401799_j77524159693443_3_alg».proof.Proof.Payload
import proofs.«401799_j77524159693443_3_alg».proof.Proof.HostIds
import proofs.«401799_j77524159693443_3_alg».proof.Proof.HostFold
import proofs.«401799_j77524159693443_3_alg».proof.Proof.HostRbf

set_option maxRecDepth 16384

noncomputable section

open scoped BigOperators

namespace Cert.Edge.Block

open Cert.KernelIdeal Cert.KernelIdeal.Gen Cert.Edge Cert.Edge.Host Cert.Edge.Payload
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The block's function of the nine argument arrays of device `c`. -/
abbrev Gm (c : Dev nD) : S500000x128.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- What the precondition gives on device `c`: atom types in [0, 95), end-node words in [0, 100000). -/
def Dom (c : Dev nD) : Prop :=
  (∀ n : Fin 100000, InRange 95 (m ((c : Thread nD τ).loc main_arg0) (ix1 n)))
  ∧ (∀ e : Fin 500000, InRange 100000 (m ((c : Thread nD τ).loc main_arg2) (ix1 e)))
  ∧ (∀ e : Fin 500000, InRange 100000 (m ((c : Thread nD τ).loc main_arg3) (ix1 e)))

theorem hz : (![0, 0] : Fin 2 → Nat) = fun _ => 0 := funext fun a => by fin_cases a <;> rfl

/-- The index maps over the grid: the edge-tiled windows (the two per-edge inputs and the result) are at block row t,
    the six tables and bias rows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem t_lt (t : Fin cfg0.N) : t.val < 125 := lt_of_lt_of_eq t.isLt N_0

/-- Edge number of row `p` of tile `t`. -/
def edge (t : Fin cfg0.N) (p : Fin 4000) : Fin 500000 := ⟨t.val * 4000 + p.val, by have := t_lt t; omega⟩

/-! ## Each window's block, read where it lies in its array -/

theorem blk0 (c : Dev nD) (t : Fin cfg0.N) (p : Fin 4000) (a : Fin 2) :
    (iblk m c 0 t : Vec Ideal S4000x2 .i32) (ix2 p a) = (V m c main_v4 : S500000x2.Idx → BitVec 32) (ix2 (edge t p) a) := by
  obtain ⟨h0, h1, -⟩ := idx_facts t
  unfold iblk
  rw [View.read_apply]
  show (V m c main_v4 : S500000x2.Idx → BitVec 32) _ = _
  congr 1
  funext b; apply Fin.ext
  match b with
  | ⟨0, _⟩ => show win0_0.index t (0 : Fin 2) * 4000 + 1 * p.val = t.val * 4000 + p.val; rw [h0]; omega
  | ⟨1, _⟩ => show win0_0.index t (1 : Fin 2) * 2 + 1 * a.val = a.val; rw [h1]; omega

theorem blk1 (c : Dev nD) (t : Fin cfg0.N) (p : Fin 4000) (r : Fin 8) :
    (iblk m c 1 t : Vec Ideal S4000x8 .bf16) (ix2 p r) = (V m c main_v18 : S500000x8.Idx → EReal) (ix2 (edge t p) r) := by
  obtain ⟨-, -, h0, h1, -⟩ := idx_facts t
  unfold iblk
  rw [View.read_apply]
  show (V m c main_v18 : S500000x8.Idx → EReal) _ = _
  congr 1
  funext b; apply Fin.ext
  match b with
  | ⟨0, _⟩ => show win0_1.index t (0 : Fin 2) * 4000 + 1 * p.val = t.val * 4000 + p.val; rw [h0]; omega
  | ⟨1, _⟩ => show win0_1.index t (1 : Fin 2) * 8 + 1 * r.val = r.val; rw [h1]; omega

theorem blk2 (c : Dev nD) (t : Fin cfg0.N) (v q : Fin 128) :
    (iblk m c 2 t : Vec Ideal S128x128 .bf16) (ix2 v q) = (V m c main_v11 : S128x128.Idx → EReal) (ix2 v q) := by
  obtain ⟨-, -, -, -, h0, h1, -⟩ := idx_facts t
  unfold iblk
  rw [View.read_apply]
  show (V m c main_v11 : S128x128.Idx → EReal) _ = _
  congr 1
  funext b; apply Fin.ext
  match b with
  | ⟨0, _⟩ => show win0_2.index t (0 : Fin 2) * 128 + 1 * v.val = v.val; rw [h0]; omega
  | ⟨1, _⟩ => show win0_2.index t (1 : Fin 2) * 128 + 1 * q.val = q.val; rw [h1]; omega

theorem blk3 (c : Dev nD) (t : Fin cfg0.N) (v : Fin 128) (q : Fin 128) :
    (iblk m c 3 t : Vec Ideal S128x128 .bf16) (ix2 v q) = (V m c main_v14 : S128x128.Idx → EReal) (ix2 v q) := by
  obtain ⟨-, -, -, -, -, -, h0, h1, -⟩ := idx_facts t
  unfold iblk
  rw [View.read_apply]
  show (V m c main_v14 : S128x128.Idx → EReal) _ = _
  congr 1
  funext b; apply Fin.ext
  match b with
  | ⟨0, _⟩ => show win0_3.index t (0 : Fin 2) * 128 + 1 * v.val = v.val; rw [h0]; omega
  | ⟨1, _⟩ => show win0_3.index t (1 : Fin 2) * 128 + 1 * q.val = q.val; rw [h1]; omega

theorem blk4 (c : Dev nD) (t : Fin cfg0.N) (r : Fin 8) (k : Fin 128) :
    (iblk m c 4 t : Vec Ideal S8x128 .bf16) (ix2 r k) = (V m c main_v21 : S8x128.Idx → EReal) (ix2 r k) := by
  obtain ⟨-, -, -, -, -, -, -, -, h0, h1, -⟩ := idx_facts t
  unfold iblk
  rw [View.read_apply]
  show (V m c main_v21 : S8x128.Idx → EReal) _ = _
  congr 1
  funext b; apply Fin.ext
  match b with
  | ⟨0, _⟩ => show win0_4.index t (0 : Fin 2) * 8 + 1 * r.val = r.val; rw [h0]; omega
  | ⟨1, _⟩ => show win0_4.index t (1 : Fin 2) * 128 + 1 * k.val = k.val; rw [h1]; omega

theorem blk5 (c : Dev nD) (t : Fin cfg0.N) (k : Fin 128) :
    (iblk m c 5 t : Vec Ideal S1x128 .f32) (ix2 (0 : Fin 1) k) = (V m c main_v22 : S1x128.Idx → EReal) (ix2 (0 : Fin 1) k) := by
  obtain ⟨-, -, -, -, -, -, -, -, -, -, h0, h1, -⟩ := idx_facts t
  unfold iblk
  rw [View.read_apply]
  show (V m c main_v22 : S1x128.Idx → EReal) _ = _
  congr 1
  funext b; apply Fin.ext
  match b with
  | ⟨0, _⟩ => show win0_5.index t (0 : Fin 2) * 1 + 1 * (0 : Fin 1).val = (0 : Fin 1).val; rw [h0]; omega
  | ⟨1, _⟩ => show win0_5.index t (1 : Fin 2) * 128 + 1 * k.val = k.val; rw [h1]; omega

theorem blk6 (c : Dev nD) (t : Fin cfg0.N) (k : Fin 128) (q : Fin 128) :
    (iblk m c 6 t : Vec Ideal S128x128 .bf16) (ix2 k q) = (V m c main_v16 : S128x128.Idx → EReal) (ix2 k q) := by
  obtain ⟨-, -, -, -, -, -, -, -, -, -, -, -, h0, h1, -⟩ := idx_facts t
  unfold iblk
  rw [View.read_apply]
  show (V m c main_v16 : S128x128.Idx → EReal) _ = _
  congr 1
  funext b; apply Fin.ext
  match b with
  | ⟨0, _⟩ => show win0_6.index t (0 : Fin 2) * 128 + 1 * k.val = k.val; rw [h0]; omega
  | ⟨1, _⟩ => show win0_6.index t (1 : Fin 2) * 128 + 1 * q.val = q.val; rw [h1]; omega

theorem blk7 (c : Dev nD) (t : Fin cfg0.N) (k : Fin 128) :
    (iblk m c 7 t : Vec Ideal S1x128 .f32) (ix2 (0 : Fin 1) k) = (V m c main_v23 : S1x128.Idx → EReal) (ix2 (0 : Fin 1) k) := by
  obtain ⟨-, -, -, -, -, -, -, -, -, -, -, -, -, -, h0, h1, -⟩ := idx_facts t
  unfold iblk
  rw [View.read_apply]
  show (V m c main_v23 : S1x128.Idx → EReal) _ = _
  congr 1
  funext b; apply Fin.ext
  match b with
  | ⟨0, _⟩ => show win0_7.index t (0 : Fin 2) * 1 + 1 * (0 : Fin 1).val = (0 : Fin 1).val; rw [h0]; omega
  | ⟨1, _⟩ => show win0_7.index t (1 : Fin 2) * 128 + 1 * k.val = k.val; rw [h1]; omega

/-- The last step of the tile at one element: the bias row is added and `s ↦ s · σ(s)` applied. -/
theorem pay1_at (A : FVec Ideal S4000x128 .f32) (B : Vec Ideal S1x128 .f32) (p : Fin 4000) (q : Fin 128) :
    k0_pay1 (F := Ideal) A B (ix2 p q) = sw ((A (ix2 p q) : EReal) + (B (ix2 (0 : Fin 1) q) : EReal)) := by
  have hb : (broadcastTo S4000x128 (shapeCast S1x128 B shapeCasts_S1x128_S1x128) broadcasts_S1x128_S4000x128 : S4000x128.Idx → EReal) (ix2 p q)
      = B (ix2 (0 : Fin 1) q) := by
    refine (broadcastTo_apply _ _ (ix2 p q) (ix2 (0 : Fin 1) q) (fun a => match a with
      | ⟨0, _⟩ => by show 0 = (if (1 : Nat) = 1 then 0 else p.val); rw [if_pos rfl]
      | ⟨1, _⟩ => by show q.val = (if (128 : Nat) = 1 then 0 else q.val); rw [if_neg (by decide)])).trans ?_
    exact shapeCast_apply _ _ (ix2 (0 : Fin 1) q) (ix2 (0 : Fin 1) q) rfl
  unfold k0_pay1
  show ((A (ix2 p q) : EReal) + _) * Ideal.logistic ((A (ix2 p q) : EReal) + _) = _
  rw [hb]
  rfl

/-- Row `p` of tile `t` of the result lies at row `edge t p` of the array. -/
theorem emb8 (t : Fin cfg0.N) (p : Fin 4000) (q : Fin 128) :
    ((cfg0.win 8).blk t).view.emb (ix2 p q) = (ix2 (edge t p) q : S500000x128.Idx) := by
  obtain ⟨-, -, -, -, -, -, -, -, -, -, -, -, -, -, -, -, h0, h1⟩ := idx_facts t
  funext b; apply Fin.ext
  match b with
  | ⟨0, _⟩ => show win0_8.index t (0 : Fin 2) * 4000 + 1 * p.val = t.val * 4000 + p.val; rw [h0]; omega
  | ⟨1, _⟩ => show win0_8.index t (1 : Fin 2) * 128 + 1 * q.val = q.val; rw [h1]; omega

/-- A load of column 0 of the two-column block reads column 0. -/
theorem ld0 (X : Vec Ideal S4000x2 .i32) (p : Fin 4000) : View.ld X r0_0 (ix2 p (0 : Fin 1)) = X (ix2 p (0 : Fin 2)) := by
  show X (r0_0.idx (ix2 p (0 : Fin 1))) = _
  congr 1
  funext b; apply Fin.ext
  match b with
  | ⟨0, _⟩ => show 0 + 1 * p.val = p.val; omega
  | ⟨1, _⟩ => show 0 + 1 * 0 = 0; rfl

/-- A load of column 1 of the two-column block reads column 1. -/
theorem ld1 (X : Vec Ideal S4000x2 .i32) (p : Fin 4000) : View.ld X r0_1 (ix2 p (0 : Fin 1)) = X (ix2 p (1 : Fin 2)) := by
  show X (r0_1.idx (ix2 p (0 : Fin 1))) = _
  congr 1
  funext b; apply Fin.ext
  match b with
  | ⟨0, _⟩ => show 0 + 1 * p.val = p.val; omega
  | ⟨1, _⟩ => show 1 + 1 * 0 = 1; rfl

/-- WHAT POINT `t` WRITES BACK is tile `t` of `G`. -/
theorem flushed_eq (c : Dev nD) (hD : Dom m c) (t : Fin cfg0.N) :
    (dats m 0 c).flushed 8 t = ((cfg0.win 8).blk t).view.read (Elt Ideal) (Gm m c) := by
  rw [Cert.KernelIdeal.Value.flushed8]
  unfold out0_8
  rw [View.canon_unit_zero hz]
  simp only [View.ld_unit_zero (S := S128x128) hz, View.ld_unit_zero (S := S4000x8) hz, View.ld_unit_zero (S := S8x128) hz, View.ld_unit_zero (S := S1x128) hz]
  funext y
  obtain ⟨p, q, rfl⟩ : ∃ (p : Fin 4000) (q : Fin 128), y = ix2 p q := ⟨y 0, y 1, eq_ix2 y⟩
  rw [View.read_apply, emb8]
  refine (pay1_at _ _ p q).trans ?_
  show _ = Gm m c (ix2 (edge t p) q)
  have e0 : View.ld (iblk m c 0 t) r0_0 (ix2 p (0 : Fin 1))
      = m ((c : Thread nD τ).loc main_arg0) (ix1 (rowOf 100000 (by decide) (m ((c : Thread nD τ).loc main_arg2) (ix1 (edge t p))))) :=
    (ld0 _ p).trans ((blk0 m c t p 0).trans (xij_left m c (edge t p) (hD.2.1 _)))
  have e1 : View.ld (iblk m c 0 t) r0_1 (ix2 p (0 : Fin 1))
      = m ((c : Thread nD τ).loc main_arg0) (ix1 (rowOf 100000 (by decide) (m ((c : Thread nD τ).loc main_arg3) (ix1 (edge t p))))) :=
    (ld1 _ p).trans ((blk0 m c t p 1).trans (xij_right m c (edge t p) (hD.2.2 _)))
  unfold Gm
  rw [G_apply, ← Kat_eq_Gat _ _ _ _ _ _ _ _ _ (edge t p) q (hD.1 _) (hD.1 _), pay2_apply, e0, e1]
  unfold Kat
  simp only [blk1 m c t, blk2 m c t, blk3 m c t, blk4 m c t, blk5 m c t, blk6 m c t, blk7 m c t, m1_apply m c, m2_apply m c, w3_apply m c,
    rbf_apply m c, wr_apply m c, br_apply m c, bl_apply m c]

/-! ## The tiles cover the array -/

/-- An index of the array is in point `t`'s tile iff each coordinate is in the tile's range on its axis. -/
theorem mem_blk8 (t : Fin cfg0.N) (i : S500000x128.Idx) :
    i ∈ ((cfg0.win 8).blk t).view.set ↔ ∀ a : Fin 2, win0_8.index t a * S4000x128.size a ≤ (i a).val ∧ (i a).val < win0_8.index t a * S4000x128.size a + S4000x128.size a := by
  show i ∈ ((View.whole main_v24).slice (win0_8.rect t)).set ↔ _
  rw [View.set_slice_whole, Rect.mem_set_unit]
  exact Iff.rfl

/-- Row `r` of the array lies in tile `r / 4000`. -/
theorem cover (i : S500000x128.Idx) : ∃ t : Fin cfg0.N, (cfg0.win 8).flush t = true ∧ i ∈ ((cfg0.win 8).blk t).view.set := by
  have hi0 : (i 0).val < 500000 := (i 0).isLt
  have hi1 : (i 1).val < 128 := (i 1).isLt
  have hN : cfg0.N = 125 := N_0
  have ht : (i 0).val / 4000 < cfg0.N := by rw [hN]; omega
  obtain ⟨-, -, -, -, -, -, -, -, -, -, -, -, -, -, -, -, h0, h1⟩ := idx_facts ⟨(i 0).val / 4000, ht⟩
  refine ⟨⟨(i 0).val / 4000, ht⟩, flush0_8 _, ?_⟩
  rw [mem_blk8]
  intro a
  match a with
  | ⟨0, _⟩ =>
    show win0_8.index ⟨(i 0).val / 4000, ht⟩ (0 : Fin 2) * 4000 ≤ (i 0).val ∧ (i 0).val < win0_8.index ⟨(i 0).val / 4000, ht⟩ (0 : Fin 2) * 4000 + 4000
    rw [h0]; show (i 0).val / 4000 * 4000 ≤ (i 0).val ∧ (i 0).val < (i 0).val / 4000 * 4000 + 4000; omega
  | ⟨1, _⟩ =>
    show win0_8.index ⟨(i 0).val / 4000, ht⟩ (1 : Fin 2) * 128 ≤ (i 1).val ∧ (i 1).val < win0_8.index ⟨(i 0).val / 4000, ht⟩ (1 : Fin 2) * 128 + 128
    rw [h1]; omega

/-- THE RESULT ARRAY after the run is `G` of the argument arrays. -/
theorem final (c : Dev nD) (hD : Dom m c) : (dats m 0 c).arrAt 8 cfg0.N = Gm m c :=
  (dats m 0 c).arrAt_eq_of_cover 8 (Gm m c) (fun t _ => flushed_eq m c hD t) cover

/-- The run re-posted: the result array at `G` of the arguments, the arguments unchanged. -/
theorem run (hD : ∀ c, Dom m c) : θ_run defs (onTc (τ := τ) (main (F := Ideal))) ⟨m, fun _ => 0, ρ⟩ fun r => ∀ c : Dev nD,
      r.2.mem ((c : Thread nD τ).loc main_v24) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c (hD c)), (h c).2⟩) (Cert.KernelIdeal.Value.run_blocks m ρ)

end Cert.Edge.Block

end
-- ==== Proof.PreDecode.lean ====
/-
  The precondition read: beside the finiteness of the float inputs it says that every atom type lies in [0, 95) and every
  end-node word of every edge in [0, 100000) — the conjuncts that keep the reference's own table lookups inside their
  tables. Only those three facts are taken out here; the finiteness conjuncts are not needed by the proof.
-/
import proofs.«401799_j77524159693443_3_alg».proof.Defs
import proofs.«401799_j77524159693443_3_alg».proof.Proof.Gen.KernelIdeal
import proofs.«401799_j77524159693443_3_alg».proof.Proof.Gen.Pre_finite_inputs
import proofs.«401799_j77524159693443_3_alg».proof.Proof.Spec
import Idealize.ShloMosaic.Lib.ValueIdx
import Idealize.ShloMosaic.Lib.ReduceAll
import Idealize.ShloMosaic.Lib.StableHlo.Predicate

noncomputable section

namespace Cert.Edge.PreDecode

open Cert.Edge
open Idealize.ShloMosaic Idealize.ShloMosaic.TcCoe Idealize.ShloMosaic.ValueIdx Idealize.SL.Sem

/-- The result of a reduction over every axis has one index. -/
private instance : Subsingleton Cert.Pre_finite_inputs.S_.Idx := ⟨fun a b => funext fun d => d.elim0⟩

/-- A word that tests `0 ≤ w` and `w < N`, both signed, lies in `[0, N)`. -/
private theorem inRange_of_cmpi (N : Nat) (k : BitVec 32) (hk : k.toInt = (N : Int)) (w : BitVec 32)
    (h0 : IntOp.cmpi .sge w 0#32 = 1#1) (h1 : IntOp.cmpi .slt w k = 1#1) : InRange N w := by
  rw [IntOp.cmpi_sge] at h0
  rw [IntOp.cmpi_slt, hk] at h1
  have e0 : (0#32 : BitVec 32).toInt = 0 := by decide
  rw [e0] at h0
  exact ⟨h0, h1⟩

private theorem toInt_95 : (95#32 : BitVec 32).toInt = ((95 : Nat) : Int) := by decide
private theorem toInt_100000 : (100000#32 : BitVec 32).toInt = ((100000 : Nat) : Int) := by decide

/-- The three index facts the precondition carries, on every device. -/
theorem decode (m : (ℓ : Loc Cert.KernelIdeal.nD Cert.KernelIdeal.τ Cert.KernelIdeal.sig) → Buf (Elt Ideal) ℓ)
    (h : Cert.Pre_KernelIdeal m) (c : Dev Cert.KernelIdeal.nD) :
    (∀ n : Fin 100000, InRange 95 (m ((c.tc : Thread Cert.KernelIdeal.nD Cert.KernelIdeal.τ).loc Cert.KernelIdeal.main_arg0) (ix1 n)))
    ∧ (∀ e : Fin 500000, InRange 100000 (m ((c.tc : Thread Cert.KernelIdeal.nD Cert.KernelIdeal.τ).loc Cert.KernelIdeal.main_arg2) (ix1 e)))
    ∧ (∀ e : Fin 500000, InRange 100000 (m ((c.tc : Thread Cert.KernelIdeal.nD Cert.KernelIdeal.τ).loc Cert.KernelIdeal.main_arg3) (ix1 e))) := by
  have e := congrFun (h c) ValueIdx.ix0
  simp only [Cert.Pre_finite_inputs.fn, Cert.Pre_finite_inputs.fn_part1, Cert.Pre_finite_inputs.fn_part2,
    Cert.Pre_finite_inputs.fn_part3, andi, IntOp.andi_eq_one] at e
  obtain ⟨⟨⟨⟨⟨⟨-, hx0⟩, hx95⟩, hi0⟩, hiN⟩, hj0⟩, hjN⟩ := e
  refine ⟨fun n => ?_, fun e => ?_, fun e => ?_⟩
  · have a := Host.reduce_andi_all _ _ _ _ _ hx0 (ix1 n)
    have b := Host.reduce_andi_all _ _ _ _ _ hx95 (ix1 n)
    simp only [cmpi, broadcastInDim, constantI] at a b
    exact inRange_of_cmpi 95 _ toInt_95 _ a b
  · have a := Host.reduce_andi_all _ _ _ _ _ hi0 (ix1 e)
    have b := Host.reduce_andi_all _ _ _ _ _ hiN (ix1 e)
    simp only [cmpi, broadcastInDim, constantI] at a b
    exact inRange_of_cmpi 100000 _ toInt_100000 _ a b
  · have a := Host.reduce_andi_all _ _ _ _ _ hj0 (ix1 e)
    have b := Host.reduce_andi_all _ _ _ _ _ hjN (ix1 e)
    simp only [cmpi, broadcastInDim, constantI] at a b
    exact inRange_of_cmpi 100000 _ toInt_100000 _ a b

end Cert.Edge.PreDecode

end
-- ==== Proof.LibGatherRows.lean ====
/-
  A ROW GATHER READ AT AN INDEX. `table[idx]` over a rank-2 table `[N, M]` with a vector of `R` row numbers lowers to a
  `stablehlo.gather` whose start indices are the `[R, 1]` column of row numbers, whose row axis is collapsed and
  start-indexed and whose column axis is the one offset axis (offset_dims = [1], collapsed_slice_dims = [0],
  start_index_map = [0], index_vector_dim = 1, slice_sizes = [1, M]). Result element `(p, k)` is the table at row
  `idx[p, 0]` — read as a signed integer and clamped into `[0, N - 1]`, as the operation clamps every start index — and
  column `k`. Stated at any extents `N`, `R`, `M` and any index width; a program's record is an instance by `rfl` on its
  fields (pass its `wf`).
-/
import Idealize.ShloMosaic.PureOps.ShapeOps
import Idealize.ShloMosaic.Lib.ValueIdx

namespace Idealize.ShloMosaic.GatherRows

open Idealize.ShloMosaic Idealize.ShloMosaic.ValueIdx

/-- The dimension numbers of a row gather: operand `[N, M]`, start indices `[R, 1]`, result `[R, M]`; the row axis is
    collapsed and start-indexed, the column axis is the one offset axis. -/
abbrev rowDims (N R M : Nat)
    (wf : GatherDims.WF ⟨2, ![N, M]⟩ ⟨2, ![R, 1]⟩ ⟨2, ![R, M]⟩ [1] [0] [] [0] [] 1 ![1, M]) :
    GatherDims ⟨2, ![N, M]⟩ ⟨2, ![R, 1]⟩ ⟨2, ![R, M]⟩ where
  offsetDims := [1]
  collapsedSliceDims := [0]
  operandBatchingDims := []
  startIndicesBatchingDims := []
  startIndexMap := [0]
  indexVectorDim := 1
  sliceSizes := ![1, M]
  wf := wf

/-- A row gather read at `(p, k)`: the operand's row `r` — the start index `idx[p, 0]` read signed and clamped into
    `[0, N - 1]` — at column `k`. -/
theorem gather_row_apply {α : Type} {N R M w : Nat}
    (wf : GatherDims.WF ⟨2, ![N, M]⟩ ⟨2, ![R, 1]⟩ ⟨2, ![R, M]⟩ [1] [0] [] [0] [] 1 ![1, M])
    (x : (⟨2, ![N, M]⟩ : Shape).Idx → α) (idx : IVec ⟨2, ![R, 1]⟩ w) (p : Fin R) (k : Fin M) (r : Fin N)
    (hr : r.val = min (idx (ix2 p (0 : Fin 1))).toInt.toNat (N - 1)) :
    Host.gather (rowDims N R M wf) x idx (ix2 p k) = x (ix2 r k) := by
  unfold Host.gather
  congr 1
  funext a
  refine Fin.ext ?_
  match a with
  | ⟨0, _⟩ =>
    show (rowDims N R M wf).start (ix2 p k) idx 0 + (rowDims N R M wf).batchCoord (ix2 p k) 0
      + (rowDims N R M wf).offCoord (ix2 p k) 0 = r.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R M wf).startIndexMap from List.mem_singleton.mpr rfl)]
    have hsi : (rowDims N R M wf).siIdx (ix2 p k) ⟨List.idxOf (0 : Fin 2) (rowDims N R M wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    exact hr.symm
  | ⟨1, _⟩ =>
    show (rowDims N R M wf).start (ix2 p k) idx 1 + (rowDims N R M wf).batchCoord (ix2 p k) 1
      + (rowDims N R M wf).offCoord (ix2 p k) 1 = k.val
    rw [GatherDims.batchCoord_eq_zero _ _ _ List.not_mem_nil]
    unfold GatherDims.start
    rw [dif_neg (show ¬ (1 : Fin 2) ∈ (rowDims N R M wf).startIndexMap from
      fun h => absurd (congrArg Fin.val (List.mem_singleton.mp h)) Nat.one_ne_zero)]
    simp only [Nat.add_zero, Nat.zero_add]
    rfl

end Idealize.ShloMosaic.GatherRows
-- ==== Proof.RefValue.lean ====
/-
  The reference's result array, stage by stage, is the block's function `G` of the nine argument arrays: the two row
  gathers read the embedded rows at the clamped node word, the concatenation lays the three rows side by side, the two
  matrix products are plain sums at the exact values, and `1 / (1 + exp (-s))` is the logistic function.
-/
import proofs.«401799_j77524159693443_3_alg».proof.Proof.Gen.ReferenceIdeal.Read
import proofs.«401799_j77524159693443_3_alg».proof.Proof.Spec
import proofs.«401799_j77524159693443_3_alg».proof.Proof.LibGatherRows
import Idealize.ShloMosaic.Lib.ValueIdx
import Idealize.ShloMosaic.Lib.Pipeline.Value
import Idealize.ShloMosaic.PureOps.Ideal.Laws

noncomputable section

open scoped BigOperators

namespace Cert.Edge.Ref

open Cert.ReferenceIdeal Cert.ReferenceIdeal.Gen Cert.ReferenceIdeal.Read Cert.Edge
open Idealize.ShloMosaic Idealize.ShloMosaic.ValueIdx Idealize.ShloMosaic.GatherRows

/-! ## The logistic chain -/

/-- The bit pattern of `1.0` denotes `1`. -/
private theorem one_pat : FloatOps.ofBits (F := Ideal) .f32 0x3F800000#32 = (1 : EReal) :=
  IdealRules.sign_bit.ideal_onePat .f32

/-- `s · (1 / (1 + exp (-s)))` is `sw s`. -/
private theorem sw_chain (s : Ideal .f32) :
    FloatOps.mulf s (FloatOps.hostDivf (FloatOps.ofBits .f32 0x3F800000#32)
      (FloatOps.addf (FloatOps.ofBits .f32 0x3F800000#32) (FloatOps.hostUnary .exp (FloatOps.hostNegf s)))) = sw s := by
  rw [one_pat]
  rfl

/-! ## The embedded rows -/

/-- The first gather: node `n`'s row of the table is the row its atom-type word names. -/
private theorem v6_apply (x0 : (⟨S100000, .i32⟩ : BufTy).Contents (Elt Ideal)) (x4 : (⟨S95x128, .f32⟩ : BufTy).Contents (Elt Ideal)) (n : Fin 100000) (k : Fin 128) :
    val_main_v6 (F := Ideal) x0 x4 (ix2 n k) = x4 (ix2 (rowOf 95 (by decide) (x0 (ix1 n))) k) := by
  unfold val_main_v6
  refine gather_row_apply (N := 95) (R := 100000) (M := 128) gather_S95x128_S100000x1_S100000x128_1_0_n_n_0_1_1128.wf x4
    (val_main_v5 (F := Ideal) x0) n k _ ?_
  have e : idx_main_v5 (ix2 n (0 : Fin 1)) = ix1 n := by funext a; match a with | ⟨0, _⟩ => rfl
  rw [val_main_v5_apply, e, val_main_v4_apply, val_main_v1_apply, val_main_v0_apply, val_main_c_apply, val_main_v3_apply,
    val_main_v2_apply, val_main_c_0_apply]
  rfl

/-- The second gather, for the first end of edge `e`. -/
private theorem v25_apply (x0 : (⟨S100000, .i32⟩ : BufTy).Contents (Elt Ideal)) (x2 : (⟨S500000, .i32⟩ : BufTy).Contents (Elt Ideal)) (x4 : (⟨S95x128, .f32⟩ : BufTy).Contents (Elt Ideal)) (e : Fin 500000) (k : Fin 128) :
    val_main_v25 (F := Ideal) x0 x2 x4 (ix2 e k) = hrow x0 x4 (x2 (ix1 e)) k := by
  unfold val_main_v25
  refine (gather_row_apply (N := 100000) (R := 500000) (M := 128) gather_S100000x128_S500000x1_S500000x128_1_0_n_n_0_1_1128.wf
    (val_main_v6 (F := Ideal) x0 x4) (val_main_v24 (F := Ideal) x2) e k (rowOf 100000 (by decide) (x2 (ix1 e))) ?_).trans
    (v6_apply x0 x4 _ k)
  have e' : idx_main_v24 (ix2 e (0 : Fin 1)) = ix1 e := by funext a; match a with | ⟨0, _⟩ => rfl
  rw [val_main_v24_apply, e', val_main_v23_apply, val_main_v20_apply, val_main_v19_apply, val_main_c_2_apply, val_main_v22_apply,
    val_main_v21_apply, val_main_c_3_apply]
  rfl

/-- The second gather, for the second end of edge `e`. -/
private theorem v32_apply (x0 : (⟨S100000, .i32⟩ : BufTy).Contents (Elt Ideal)) (x3 : (⟨S500000, .i32⟩ : BufTy).Contents (Elt Ideal)) (x4 : (⟨S95x128, .f32⟩ : BufTy).Contents (Elt Ideal)) (e : Fin 500000) (k : Fin 128) :
    val_main_v32 (F := Ideal) x0 x3 x4 (ix2 e k) = hrow x0 x4 (x3 (ix1 e)) k := by
  unfold val_main_v32
  refine (gather_row_apply (N := 100000) (R := 500000) (M := 128) gather_S100000x128_S500000x1_S500000x128_1_0_n_n_0_1_1128.wf
    (val_main_v6 (F := Ideal) x0 x4) (val_main_v31 (F := Ideal) x3) e k (rowOf 100000 (by decide) (x3 (ix1 e))) ?_).trans
    (v6_apply x0 x4 _ k)
  have e' : idx_main_v31 (ix2 e (0 : Fin 1)) = ix1 e := by funext a; match a with | ⟨0, _⟩ => rfl
  rw [val_main_v31_apply, e', val_main_v30_apply, val_main_v27_apply, val_main_v26_apply, val_main_c_4_apply, val_main_v29_apply,
    val_main_v28_apply, val_main_c_5_apply]
  rfl

/-! ## The radial branch -/

/-- The radial pre-activation: the six features against row `k` of `W_rbf`, plus the bias. -/
private theorem v11_apply (x1 : (⟨S500000x6, .f32⟩ : BufTy).Contents (Elt Ideal)) (x5 : (⟨S128x6, .f32⟩ : BufTy).Contents (Elt Ideal)) (x6 : (⟨S128, .f32⟩ : BufTy).Contents (Elt Ideal)) (e : Fin 500000) (k : Fin 128) :
    val_main_v11 (F := Ideal) x1 x5 x6 (ix2 e k) = (∑ r : Fin 6, x1 (ix2 e r) * x5 (ix2 k r)) + x6 (ix1 k) := by
  have e1 : idx_main_v9 (idx_main_v10 (ix2 e k)) = ix1 k := by funext a; match a with | ⟨0, _⟩ => rfl
  rw [val_main_v11_apply, val_main_v8_apply, val_main_v10_apply, val_main_v9_apply, e1]
  refine congrArg (· + x6 (ix1 k)) ?_
  refine Finset.sum_congr rfl fun r _ => ?_
  have e2 : lidx_main_v8 (ix2 e k) r = ix2 e r := by
    funext a; match a with | ⟨0, _⟩ => rfl | ⟨1, _⟩ => rfl
  have e3 : idx_main_v7 (ridx_main_v8 (ix2 e k) r) = ix2 k r := by
    funext a; match a with | ⟨0, _⟩ => rfl | ⟨1, _⟩ => rfl
  rw [val_main_v7_apply, e2, e3]

/-- The radial branch is `rbfh`. -/
private theorem v18_apply (x1 : (⟨S500000x6, .f32⟩ : BufTy).Contents (Elt Ideal)) (x5 : (⟨S128x6, .f32⟩ : BufTy).Contents (Elt Ideal)) (x6 : (⟨S128, .f32⟩ : BufTy).Contents (Elt Ideal)) (e : Fin 500000) (k : Fin 128) :
    val_main_v18 (F := Ideal) x1 x5 x6 (ix2 e k) = rbfh x1 x5 x6 e k := by
  rw [val_main_v18_apply, val_main_v17_apply, val_main_v16_apply, val_main_cst_1_apply, val_main_v15_apply, val_main_v14_apply,
    val_main_cst_apply, val_main_v13_apply, val_main_v12_apply, sw_chain, v11_apply]
  rfl

/-! ## The three rows side by side -/

/-- The concatenation read at `(e, k)`: the three rows of 128 laid side by side. -/
private theorem v33_apply (x0 : (⟨S100000, .i32⟩ : BufTy).Contents (Elt Ideal)) (x1 : (⟨S500000x6, .f32⟩ : BufTy).Contents (Elt Ideal)) (x2 : (⟨S500000, .i32⟩ : BufTy).Contents (Elt Ideal)) (x3 : (⟨S500000, .i32⟩ : BufTy).Contents (Elt Ideal)) (x4 : (⟨S95x128, .f32⟩ : BufTy).Contents (Elt Ideal)) (x5 : (⟨S128x6, .f32⟩ : BufTy).Contents (Elt Ideal)) (x6 : (⟨S128, .f32⟩ : BufTy).Contents (Elt Ideal)) (e : Fin 500000) (k : Fin 384) :
    val_main_v33 (F := Ideal) x0 x1 x2 x3 x4 x5 x6 (ix2 e k)
      = cat3 (hrow x0 x4 (x2 (ix1 e))) (hrow x0 x4 (x3 (ix1 e))) (rbfh x1 x5 x6 e) k := by
  unfold val_main_v33 cat3
  by_cases h : k.val < 128
  · rw [dif_pos h]
    refine (concatenate_apply_piece (t := S500000x384) (1 : Fin 2)
      [⟨S500000x128, val_main_v25 (F := Ideal) x0 x2 x4⟩, ⟨S500000x128, val_main_v32 (F := Ideal) x0 x3 x4⟩,
        ⟨S500000x128, val_main_v18 (F := Ideal) x1 x5 x6⟩]
      concatenates_S500000x128_S500000x128_S500000x128_S500000x384_d1 (ix2 e k) 0 (show (0 : Nat) < 3 by omega) S500000x128
      (val_main_v25 (F := Ideal) x0 x2 x4) rfl rfl 0 rfl (ix2 e (⟨k.val, h⟩ : Fin 128)) ?_ ?_).trans (v25_apply x0 x2 x4 e _)
    · intro b hb
      match b with
      | ⟨0, _⟩ => rfl
      | ⟨1, _⟩ => exact absurd rfl hb
    · show 0 + k.val = k.val
      omega
  · rw [dif_neg h]
    by_cases h2 : k.val < 256
    · rw [dif_pos h2]
      refine (concatenate_apply_piece (t := S500000x384) (1 : Fin 2)
      [⟨S500000x128, val_main_v25 (F := Ideal) x0 x2 x4⟩, ⟨S500000x128, val_main_v32 (F := Ideal) x0 x3 x4⟩,
        ⟨S500000x128, val_main_v18 (F := Ideal) x1 x5 x6⟩]
      concatenates_S500000x128_S500000x128_S500000x128_S500000x384_d1 (ix2 e k) 1 (show (1 : Nat) < 3 by omega) S500000x128
        (val_main_v32 (F := Ideal) x0 x3 x4) rfl rfl 128 rfl (ix2 e (⟨k.val - 128, by omega⟩ : Fin 128)) ?_ ?_).trans
        (v32_apply x0 x3 x4 e _)
      · intro b hb
        match b with
        | ⟨0, _⟩ => rfl
        | ⟨1, _⟩ => exact absurd rfl hb
      · show 128 + (k.val - 128) = k.val
        omega
    · rw [dif_neg h2]
      have hk := k.isLt
      refine (concatenate_apply_piece (t := S500000x384) (1 : Fin 2)
      [⟨S500000x128, val_main_v25 (F := Ideal) x0 x2 x4⟩, ⟨S500000x128, val_main_v32 (F := Ideal) x0 x3 x4⟩,
        ⟨S500000x128, val_main_v18 (F := Ideal) x1 x5 x6⟩]
      concatenates_S500000x128_S500000x128_S500000x128_S500000x384_d1 (ix2 e k) 2 (show (2 : Nat) < 3 by omega) S500000x128
        (val_main_v18 (F := Ideal) x1 x5 x6) rfl rfl 256 rfl (ix2 e (⟨k.val - 256, by omega⟩ : Fin 128)) ?_ ?_).trans
        (v18_apply x1 x5 x6 e _)
      · intro b hb
        match b with
        | ⟨0, _⟩ => rfl
        | ⟨1, _⟩ => exact absurd rfl hb
      · show 256 + (k.val - 256) = k.val
        omega

/-! ## The linear layer -/

/-- The linear pre-activation: the 384 laid-out entries against row `c` of `W_lin`, plus the bias. -/
private theorem v38_apply (x0 : (⟨S100000, .i32⟩ : BufTy).Contents (Elt Ideal)) (x1 : (⟨S500000x6, .f32⟩ : BufTy).Contents (Elt Ideal))
    (x2 x3 : (⟨S500000, .i32⟩ : BufTy).Contents (Elt Ideal)) (x4 : (⟨S95x128, .f32⟩ : BufTy).Contents (Elt Ideal))
    (x5 : (⟨S128x6, .f32⟩ : BufTy).Contents (Elt Ideal)) (x6 : (⟨S128, .f32⟩ : BufTy).Contents (Elt Ideal))
    (x7 : (⟨S128x384, .f32⟩ : BufTy).Contents (Elt Ideal)) (x8 : (⟨S128, .f32⟩ : BufTy).Contents (Elt Ideal)) (e : Fin 500000) (c : Fin 128) :
    val_main_v38 (F := Ideal) x0 x1 x2 x3 x4 x5 x6 x7 x8 (ix2 e c)
      = (∑ k : Fin 384, cat3 (hrow x0 x4 (x2 (ix1 e))) (hrow x0 x4 (x3 (ix1 e))) (rbfh x1 x5 x6 e) k * x7 (ix2 c k))
        + x8 (ix1 c) := by
  have e1 : idx_main_v36 (idx_main_v37 (ix2 e c)) = ix1 c := by funext a; match a with | ⟨0, _⟩ => rfl
  rw [val_main_v38_apply, val_main_v35_apply, val_main_v37_apply, val_main_v36_apply, e1]
  refine congrArg (· + x8 (ix1 c)) ?_
  refine Finset.sum_congr rfl fun k _ => ?_
  have e2 : lidx_main_v35 (ix2 e c) k = ix2 e k := by
    funext a; match a with | ⟨0, _⟩ => rfl | ⟨1, _⟩ => rfl
  have e3 : idx_main_v34 (ridx_main_v35 (ix2 e c) k) = ix2 c k := by
    funext a; match a with | ⟨0, _⟩ => rfl | ⟨1, _⟩ => rfl
  rw [val_main_v34_apply, e2, e3, v33_apply]

/-- The reference's last stage is `G`. -/
theorem ref_eq (x0 : (⟨S100000, .i32⟩ : BufTy).Contents (Elt Ideal)) (x1 : (⟨S500000x6, .f32⟩ : BufTy).Contents (Elt Ideal))
    (x2 x3 : (⟨S500000, .i32⟩ : BufTy).Contents (Elt Ideal)) (x4 : (⟨S95x128, .f32⟩ : BufTy).Contents (Elt Ideal))
    (x5 : (⟨S128x6, .f32⟩ : BufTy).Contents (Elt Ideal)) (x6 : (⟨S128, .f32⟩ : BufTy).Contents (Elt Ideal))
    (x7 : (⟨S128x384, .f32⟩ : BufTy).Contents (Elt Ideal)) (x8 : (⟨S128, .f32⟩ : BufTy).Contents (Elt Ideal)) :
    val_main_v45 (F := Ideal) x0 x1 x2 x3 x4 x5 x6 x7 x8 = G x0 x1 x2 x3 x4 x5 x6 x7 x8 := by
  funext y
  obtain ⟨e, c, rfl⟩ : ∃ (e : Fin 500000) (c : Fin 128), y = ix2 e c := ⟨y 0, y 1, eq_ix2 y⟩
  rw [G_apply, val_main_v45_apply, val_main_v44_apply, val_main_v43_apply, val_main_cst_7_apply, val_main_v42_apply,
    val_main_v41_apply, val_main_cst_6_apply, val_main_v40_apply, val_main_v39_apply, sw_chain, v38_apply]
  rfl

end Cert.Edge.Ref

end
-- ==== Proof.lean ====
/-
  The edge-embedding block: a fused tile kernel against its plain reference, equal over the extended reals.

  For edge e with end nodes i e, j e the reference embeds every node's atom type (a row of a 95-row table), gathers the
  two end nodes' rows, lays them beside rbfh e = sw (rbf e · W_rbfᵀ + b_rbf), multiplies the 384-wide row into W_linᵀ, adds
  b_lin and applies sw s = s · σ(s). The kernel gathers the two atom TYPES instead of the embedded rows, and, per tile
  of 4000 edges, picks the rows out of the table already multiplied into W_lin's first two blocks, by a product with the
  indicator of the atom type; the third block is multiplied by rbfh computed in the tile from inputs padded with zeros.
  Cutting the 384-term sum into its three blocks, reading the indicator sums as a choice of row, and dropping the zero
  terms identifies the two (Spec.lean, SpecLaws.lean); none of those steps needs a finite value.

  The claim holds on the evident domain of the two lookups, which the precondition states beside finiteness: every atom
  type in [0, 95), every end-node word in [0, 100000). Outside it the two programs treat an index differently (the
  reference clamps it into the table, the kernel's lookups give zero rows), so the statement carries those conjuncts.

  Modules: Spec / SpecLaws (the mathematics), RefValue (the reference's stages are G), PreDecode (the index facts out of
  the precondition), Payload (the tile's accumulator at an element), HostIds / HostFold / HostRbf (the arrays the host
  code hands the tile, at an element), Block (tiles to the array, the run). The three frames are the generated ones; the
  idealization rewrote nothing, so `preserves` is `True`.
-/
import proofs.«401799_j77524159693443_3_alg».proof.Defs
import proofs.«401799_j77524159693443_3_alg».proof.Proof.Gen.Kernel
import proofs.«401799_j77524159693443_3_alg».proof.Proof.Gen.Kernel.Skeleton
import proofs.«401799_j77524159693443_3_alg».proof.Proof.Gen.Kernel.Launch
import proofs.«401799_j77524159693443_3_alg».proof.Proof.Gen.Kernel.Points
import proofs.«401799_j77524159693443_3_alg».proof.Proof.Gen.Kernel.Frame
import proofs.«401799_j77524159693443_3_alg».proof.Proof.Gen.KernelIdeal
import proofs.«401799_j77524159693443_3_alg».proof.Proof.Gen.KernelIdeal.Skeleton
import proofs.«401799_j77524159693443_3_alg».proof.Proof.Gen.KernelIdeal.Launch
import proofs.«401799_j77524159693443_3_alg».proof.Proof.Gen.KernelIdeal.Points
import proofs.«401799_j77524159693443_3_alg».proof.Proof.Gen.KernelIdeal.Frame
import proofs.«401799_j77524159693443_3_alg».proof.Proof.Gen.ReferenceIdeal
import proofs.«401799_j77524159693443_3_alg».proof.Proof.Gen.Pre_finite_inputs
import proofs.«401799_j77524159693443_3_alg».proof.Proof.Gen.KernelIdeal.Value
import proofs.«401799_j77524159693443_3_alg».proof.Proof.Gen.ReferenceIdeal.Run
import proofs.«401799_j77524159693443_3_alg».proof.Proof.Gen.ReferenceIdeal.Read
import proofs.«401799_j77524159693443_3_alg».proof.Proof.Block
import proofs.«401799_j77524159693443_3_alg».proof.Proof.PreDecode
import proofs.«401799_j77524159693443_3_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at `G` of arguments that agree: the kernel's by the tiles (Block.lean)
    under the index facts the precondition carries, the reference's stage by stage (RefValue.lean). -/
theorem algebraic : Cert.algebraic_KernelIdeal_ReferenceIdeal := by
  intro m ρ m' ρ' hpre hagree
  have hD : ∀ c, Cert.Edge.Block.Dom m c := fun c => Cert.Edge.PreDecode.decode m hpre c
  refine ⟨fun c => Cert.Edge.Block.Gm m c, Cert.Edge.Block.run m ρ hD, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, Cert.Edge.Ref.ref_eq, (hagree c).1, (hagree c).2.1, (hagree c).2.2.1,
    (hagree c).2.2.2.1, (hagree c).2.2.2.2.1, (hagree c).2.2.2.2.2.1, (hagree c).2.2.2.2.2.2.1, (hagree c).2.2.2.2.2.2.2.1,
    (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
